-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x4096 : Shape := ⟨2, ![8192, 4096]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x8192 .f32) (main_arg1 : FVec F S8192x4096 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x8192 : Shape := ⟨2, ![8192, 8192]⟩
abbrev S8192x4096 : Shape := ⟨2, ![8192, 4096]⟩
abbrev S512x1024 : Shape := ⟨2, ![512, 1024]⟩
abbrev S4096x4096 : Shape := ⟨2, ![4096, 4096]⟩
abbrev S1024x1024 : Shape := ⟨2, ![1024, 1024]⟩
abbrev S_ : Shape := ⟨0, ![]⟩

abbrev nBuf : Space → Nat
  | .hbm => 21
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .bf16⟩
  | .hbm, ⟨3, _⟩ => ⟨S8192x4096, .bf16⟩
  | .hbm, ⟨4, _⟩ => ⟨S4096x4096, .f32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S8192x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_call0_v6 : Ref sig .tc := ⟨.hbm, 13, rfl⟩
abbrev main_call0_cst_0 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S4096x4096 : S_.BroadcastsInDim S4096x4096 (![] : Fin 0 → Fin S4096x4096.rank)
  reducesTo_S4096x4096_S_d0_1 : S4096x4096.ReducesTo [0, 1] S_
  h_S_ : 0 < S_.numel
  slices_S8192x8192_S8192x4096_0_4096 : S8192x8192.Slices ![0, 4096] S8192x4096
  reducesTo_S8192x4096_S_d0_1 : S8192x4096.ReducesTo [0, 1] S_
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .bf16 = 32 ∨ (Rect.block (s := S8192x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .bf16 = 32 ∨ (Rect.block (s := S8192x4096) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x4096.size a
  hwx1_1 : ∀ i : grid1.Coords, EltTy.bits .bf16 = 32 ∨ (Rect.block (s := S8192x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x4096 : Shape := ⟨2, ![8192, 4096]⟩
abbrev S_ : Shape := ⟨0, ![]⟩
abbrev S4096x8192 : Shape := ⟨2, ![4096, 8192]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8192, .f32⟩
  | .hbm, ⟨10, _⟩ => ⟨S4096x4096, .f32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_call0_v6 : Ref sig .tc := ⟨.hbm, 19, rfl⟩
abbrev main_call0_cst_0 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  slices_S8192x8192_S8192x4096_0_0 : S8192x8192.Slices ![0, 0] S8192x4096
  slices_S8192x8192_S8192x4096_0_4096 : S8192x8192.Slices ![0, 4096] S8192x4096
  reducesTo_S8192x4096_S_d0_1 : S8192x4096.ReducesTo [0, 1] S_
  h_S_ : 0 < S_.numel
  transposes_S8192x4096_S4096x8192_1_0 : S8192x4096.Transposes [1, 0] S4096x8192
  bcast_S_S4096x4096 : S_.BroadcastsInDim S4096x4096 (![] : Fin 0 → Fin S4096x4096.rank)
  reducesTo_S4096x4096_S_d0_1 : S4096x4096.ReducesTo [0, 1] S_
  dot_S4096x8192_S8192x4096_S4096x4096_1_0_0_1_n_n_wf : DotDims.WF S4096x8192 S8192x4096 S4096x4096 [1] [0] [0] [1] [] []

variable [Facts₀]

def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.K.Prep.lean ====
/- Region 0 (the elementwise stage): what one grid point of the kernel leaves in its two output blocks,
   the region's proof data, and the body obligation, at any float instance and at any entry contents V. -/
import proofs.«164337_j20615843021101_1_alg».proof.Proof.Gen.Kernel.Launch
import proofs.«164337_j20615843021101_1_alg».proof.Proof.Gen.Kernel.Skeleton
import proofs.«164337_j20615843021101_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body touches: a whole 512 x 1024 block. -/
abbrev r0 : Rect S512x1024 := Rect.unit (s := S512x1024) ![0, 0] S512x1024.size inb_S512x1024_S512x1024_0_0

/-- The difference block mean - targets, as the body stores it. -/
def out0_3 (x0 x2 : Vec F S512x1024 .f32) : Vec F S512x1024 .bf16 :=
  View.canon [⟨r0, k0_pay2 (View.ld x0 r0) (View.ld x2 r0)⟩]

/-- The quotient block (mean - targets) / var, as the body stores it. -/
def out0_4 (x0 x1 x2 : Vec F S512x1024 .f32) : Vec F S512x1024 .bf16 :=
  View.canon [⟨r0, k0_pay3 (View.ld x0 r0) (View.ld x1 r0) (View.ld x2 r0)⟩]

/-- Region 0's proof data: inputs keep their blocks, the outputs hold the two stored blocks; the two input
    windows on the one array hold complementary halves of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-! ## The input windows' staging buffers hold their blocks -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The mean window's staging buffer holds the mean block of the point, fetched there or carried over. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The variance window's staging buffer holds the variance block of the point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The targets window's staging buffer holds the targets block of the point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## One store of the whole block covers the block -/

/-- A single piece on the whole-block rectangle reaches every index of the block. -/
theorem cover0 (p0 : Vec F S512x1024 .bf16) (y : S512x1024.Idx) :
    ∃ pc ∈ ([⟨r0, p0⟩] : List (View.Piece (Elt F) S512x1024 .bf16)), y ∈ pc.1.set :=
  View.cover_of_tiled [⟨r0, p0⟩] S512x1024.size (by rfl) y

/-! ## The body's triple -/

set_option maxHeartbeats 1000000 in
/-- The body on five whole staging memrefs: the three inputs at read contents x0 (mean), x1 (variance), x2 (targets),
    the two outputs at anything. It reads the three inputs, reads and then overwrites each output whole, and ends with
    the inputs as they were, the first output at the rounded difference and the second at the rounded quotient. -/
theorem sound_kernel0 (c : Dev nD) (E : Set ℕ) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .bf16) (harg6 : arg6.IsWhole)
    (x0 x1 x2 : Vec F S512x1024 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x2)
            ∗ owns (c : Thread nD τ) arg6 fullShare (out0_4 x0 x1 x2)) -∗ K ⟨⟩))
      ⊢ wp frame (wpE (defs₀ (F := F)) Variants.none c none) E
          (cc0__prep_kernel i arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  · iexists _; isplitr
    swap; · iexact H4
    ipureintro
    exact View.read_writes_eq_canon _ _ _ (cover0 _)

/-! ## The body obligation, at a generic point -/

/-- What the body is called with at point t: the invariant, what the core owes, and the five current staging buffers,
    the inputs' at what they hold and the outputs' at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debts, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three input buffers hold their blocks, so the triple above applies at those blocks;
    the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Shared.lean ====
/- Region 0 reads ONE array through two windows (its left and right column halves). The array's full share is
   dealt to the two windows as complementary halves at the region's entry and put together again at its exit. -/
import proofs.«164337_j20615843021101_1_alg».proof.Proof.K.Prep

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 0's five windows. -/
theorem arrRefs0 : Finset.univ.image (Pipeline.arrRef spec0)
    = ([main_arg0, main_arg1, main_v0_0, main_v0_1] : List (Ref sig .tc)).toFinset := by decide

/-- Those buffers, each whole at the full share, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg0) ↦{fullShare} U main_arg0) ∗ (((c : Thread nD τ).loc main_arg1) ↦{fullShare} U main_arg1)
          ∗ (((c : Thread nD τ).loc main_v0_0) ↦{fullShare} U main_v0_0) ∗ (((c : Thread nD τ).loc main_v0_1) ↦{fullShare} U main_v0_1)) := by
  unfold Pipeline.arrBufs
  exact bigSep_eq_bigSepL_of_eq _ arrRefs0 (by decide) _

/-- The proof data's arrays, window by window: the shared array twice, at the two halves of its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2)
          ∗ (((c : Thread nD τ).loc main_v0_0) ↦{fullShare} G 3) ∗ (((c : Thread nD τ).loc main_v0_1) ↦{fullShare} G 4)) := by
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl, show (dat0 V c).share 4 = fullShare from rfl]
  rw [(arr_whole0 0).set_eq_univ, (arr_whole0 2).set_eq_univ, (arr_whole0 3).set_eq_univ, (arr_whole0 4).set_eq_univ]

/-- A whole buffer at the full share is the same buffer held twice, at the two halves of the share. -/
theorem halves (c : Dev nD) (f : Buf (Elt F) ((c : Thread nD τ).loc main_arg0)) :
    ((((c : Thread nD τ).loc main_arg0) ↦{fullShare} f) : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-- ENTRY: a core's unscoped buffers at contents V are region 0's arrays at those contents, the shared array
    dealt to its two windows as the two halves of the full share, and the unscoped rest. -/
theorem arrays_of_bufs0 (c : Dev nD) :
    (unscopedBufs c (V c) : sProp 𝕄) ⊢ iprop((dat0 V c).arrays (dat0 V c).A ∗ Pipeline.unscopedRest spec0 c (V c)) := by
  have hsp : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [hsp, arrBufs0_eq, arrays0_eq]
  have hsh := (halves (F := F) c (V c main_arg0)).1
  iintro ⟨⟨H0, H1, H3, H4⟩, Hr⟩
  ihave H0' := hsh $$ H0
  icases H0' with ⟨Ha, Hb⟩
  isplitr [Hr]
  · isplitl [Ha]; · iexact Ha
    isplitl [Hb]; · iexact Hb
    isplitl [H1]; · iexact H1
    isplitl [H3]; · iexact H3
    iexact H4
  · iexact Hr

/-- EXIT: region 0's arrays — the two windows on the shared array holding ONE contents, the outputs theirs —
    and the unscoped rest at V are the core's unscoped buffers at any valuation V' that has those contents at the
    four buffers and agrees with V elsewhere. -/
theorem bufs_of_arrays0 (c : Dev nD) (V' : (b : Ref sig .tc) → Buf (Elt F) ((c : Thread nD τ).loc b))
    (G : (w : Fin cfg0.W) → Buf (Elt F) ((cfg0.win w).arr.view.loc (c : Thread nD τ)))
    (h0 : G 0 = V' main_arg0) (h1 : G 1 = V' main_arg0) (h2 : G 2 = V' main_arg1) (h3 : G 3 = V' main_v0_0) (h4 : G 4 = V' main_v0_1)
    (hrest : ∀ b, b ∉ Finset.univ.image (Pipeline.arrRef spec0) → V' b = V c b) :
    iprop((dat0 V c).arrays G ∗ Pipeline.unscopedRest spec0 c (V c)) ⊢ (unscopedBufs c V' : sProp 𝕄) := by
  have hsp : (unscopedBufs c V' : sProp 𝕄) = iprop(Pipeline.arrBufs spec0 c V' ∗ Pipeline.unscopedRest spec0 c V') :=
    Pipeline.unscopedBufs_split₀ cfgs 0 winFacts₀0.arr_unscoped c V'
  rw [hsp, arrBufs0_eq, arrays0_eq, h0, h1, h2, h3, h4]
  have hsh := (halves (F := F) c (V' main_arg0)).2
  iintro ⟨⟨Ha, Hb, H1, H3, H4⟩, Hr⟩
  isplitr [Hr]
  · isplitl [Ha Hb]
    · iapply hsh
      isplitl [Ha]; · iexact Ha
      iexact Hb
    isplitl [H1]; · iexact H1
    isplitl [H3]; · iexact H3
    iexact H4
  · unfold Pipeline.unscopedRest
    iapply (Entails.of_eq (bigSep_congr fun b hb => by rw [hrest b (Finset.mem_sdiff.mp hb).2]))
    iexact Hr

end Cert.Kernel.Fr

end
-- ==== Proof.K.Acc.lean ====
/- Region 1 (the blocked product): the accumulator block after each grid point, the region's proof data with the
   accumulator carried in the invariant, and the body obligation, at any float instance and any entry contents V. -/
import proofs.«164337_j20615843021101_1_alg».proof.Proof.Gen.Kernel.Launch
import proofs.«164337_j20615843021101_1_alg».proof.Proof.Gen.Kernel.Skeleton
import proofs.«164337_j20615843021101_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a whole memref. -/
abbrev scM1 : Memref sig .tc .vmem S1024x1024 .f32 := Memref.whole cc1_scratch0

/-- THE ACCUMULATION: what the scratch holds after grid point n. The last grid axis (extent 8) is the
    contraction's block index: at its first step the accumulator restarts from zero plus this step's product,
    at every later step it is the previous point's accumulator plus this step's product. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact (if_pos h).trans rfl

theorem accAt_later (c : Dev nD) (t : Fin cfg1.N) (h : ¬ t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The core's scoped buffers that this region neither stages through nor accumulates in — the ten staging
    buffers of the elementwise stage before it —, each whole at some contents: the region holds them from its
    first point to its last and hands them back. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before position n: at the start the scoped rest as the launch hands it; afterwards the
    stage before's staging buffers at some contents, the accumulator at what the point before left, and the
    generator register at some state. -/
def PhiS (c : Dev nD) : (n : ℕ) → n ≤ cfg1.N → sProp 𝕄
  | 0, _ => Pipeline.ΦA spec1 c
  | n + 1, hn => iprop(iprop(idleScoped c ∗ owns (c : Thread nD τ) scM1 fullShare (accAt V c n hn)) ∗ (∃ r, prngReg c r))

/-- Region 1's proof data: inputs keep their blocks; the output window's buffer is named at the accumulator
    (it is written, and written back, only at the last contraction step). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = accAt V c t.val t.isLt := by dsimp only [dat1]

/-! ## The body's two branches and where they are taken -/

/-- The body's first branch (zero the accumulator): taken where the contraction's block index is zero. -/
abbrev atFirstStep (i : grid1.Coords) : Prop :=
  (Scalar.cmpi .ne (Scalar.extui (Scalar.cmpi .eq (BitVec.ofNat 32 (i 2).val) 0#32)) 0#32) = 1#1
/-- The body's second branch (copy the accumulator out): taken where the contraction's block index is the last, seven. -/
abbrev atLastStep (i : grid1.Coords) : Prop := k1_cond2 i = 1#1

/-- The contraction's block index is the point's position modulo 8: the first branch is taken at the points
    ≡ 0 (mod 8), -/
theorem atFirstStep_iff : ∀ t : Fin cfg1.N, atFirstStep (grid1.coords t) ↔ t.val % 8 = 0 :=
  (by decide +kernel : ∀ t : Fin grid1.N, atFirstStep (grid1.coords t) ↔ t.val % 8 = 0)
/-- the second at the points ≡ 7 (mod 8). -/
theorem atLastStep_iff : ∀ t : Fin cfg1.N, atLastStep (grid1.coords t) ↔ t.val % 8 = 7 :=
  (by decide +kernel : ∀ t : Fin grid1.N, atLastStep (grid1.coords t) ↔ t.val % 8 = 7)

/-- The two input windows are never idle. -/
theorem aLive : ∀ t : Fin cfg1.N, cfg1.idle 0 (grid1.coords t) = false := by decide +kernel
theorem bLive : ∀ t : Fin cfg1.N, cfg1.idle 1 (grid1.coords t) = false := by decide +kernel
/-- Off the last step of a contraction the output window is idle, and its block is not written back; -/
theorem outIdle : ∀ t : Fin cfg1.N, ¬atLastStep (grid1.coords t) → cfg1.idle 2 (grid1.coords t) = true := by decide +kernel
theorem outKept : ∀ t : Fin cfg1.N, ¬atLastStep (grid1.coords t) → (cfg1.win 2).flush t = false := by decide +kernel
/-- at the last step it is live. -/
theorem outLive : ∀ t : Fin cfg1.N, atLastStep (grid1.coords t) → cfg1.idle 2 (grid1.coords t) = false := by decide +kernel

/-! ## Whole-block loads and stores -/

/-- The blocks' rectangles start at the origin. -/
theorem zeroOffsets : (![0, 0] : Fin 2 → Nat) = fun _ => 0 := funext fun a => by fin_cases a <;> rfl

/-- The one rectangle the body loads and stores through: a whole 1024 x 1024 block. -/
abbrev wholeBlock : Rect S1024x1024 := Rect.unit (s := S1024x1024) ![0, 0] S1024x1024.size inb_S1024x1024_S1024x1024_0_0

/-- Every index of a block lies in it. -/
theorem inWholeBlock (y : S1024x1024.Idx) : y ∈ wholeBlock.set :=
  View.mem_set_unit_zero zeroOffsets inb_S1024x1024_S1024x1024_0_0 y

/-- A load of a whole block, of a buffer whose contents read x, reads x. -/
theorem load_whole {e : EltTy} (m : Memref sig .tc .vmem S1024x1024 e) (hm : m.IsWhole) (x : S1024x1024.Idx → Elt F e) :
    View.readAt (Elt F) m.view wholeBlock.toLoadRect (hm.unread x) = x := by
  rw [View.readAt_eq_ld, hm.read_unread, View.ld_unit_zero zeroOffsets]

/-- After a store of a whole block, whatever was stored before, the buffer reads what was stored. -/
theorem read_store_whole {e : EltTy} (m : Memref sig .tc .vmem S1024x1024 e) (f : m.view.ty.Contents (Elt F))
    (w : S1024x1024.Idx → Elt F e) (L : List (View.Piece (Elt F) S1024x1024 e)) :
    m.view.read (Elt F) (m.view.writes (Elt F) f ((⟨wholeBlock, w⟩ : View.Piece (Elt F) S1024x1024 e) :: L)) = w := by
  rw [View.read_writes_eq_canon m.view f _ (fun y => ⟨⟨wholeBlock, w⟩, List.mem_cons_self, inWholeBlock y⟩),
    View.canon_cons_unit_zero zeroOffsets]

/-- A load of a whole block after one store of a whole block reads what was stored. -/
theorem load_store_whole {e : EltTy} (m : Memref sig .tc .vmem S1024x1024 e)
    (w : S1024x1024.Idx → Elt F e) :
    m.view.readCov [(⟨wholeBlock, w⟩ : View.Piece (Elt F) S1024x1024 e)] wholeBlock.toLoadRect = w :=
  View.readCov_unit_zero m.view zeroOffsets inb_S1024x1024_S1024x1024_0_0 w

/-! ## The body, step by step of a contraction -/

set_option maxHeartbeats 1000000 in
/-- THE FIRST STEP of a contraction. Both input blocks at x0, x1, the output block at anything (handed back
    untouched), the accumulator at anything: the body zeroes the accumulator, reads it back, and leaves in it
    zero plus the product of the two blocks. -/
theorem run_first (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : atFirstStep i) (hc1 : ¬atLastStep i)
    (x0 x1 : Vec F S1024x1024 .bf16) (xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ (∃ d, owns (c : Thread nD τ) arg6 fullShare d)
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fi, %hfi, HI⟩, ⟨%ds, %fs, -, HS⟩, Hk⟩
  obtain rfl := harg3.eq_unread hf0; obtain rfl := harg4.eq_unread hf1
  obtain rfl := harg5.eq_unread hfi
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr; · ipureintro; exact harg5.read_unread _
    iexact HI
  iexists _; isplitr
  swap; · iexact HS
  ipureintro
  sl_unfold_words
  refine (read_store_whole arg6 _ _ _).trans ?_
  rw [load_whole arg3 harg3 x0, load_whole arg4 harg4 x1, load_store_whole arg6 (k1_pay1 (F := F))]

set_option maxHeartbeats 1000000 in
/-- A MIDDLE STEP of a contraction. The accumulator at xs, what the step before left: the body leaves in it
    xs plus the product of the two blocks, and leaves the output block untouched. -/
theorem run_middle (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬atFirstStep i) (hc1 : ¬atLastStep i)
    (x0 x1 : Vec F S1024x1024 .bf16) (xi xs : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare xs
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fi, %hfi, HI⟩, ⟨%fs, %hfs, HS⟩, Hk⟩
  obtain rfl := harg3.eq_unread hf0; obtain rfl := harg4.eq_unread hf1
  obtain rfl := harg5.eq_unread hfi; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr; · ipureintro; exact harg5.read_unread _
    iexact HI
  iexists _; isplitr
  swap; · iexact HS
  ipureintro
  refine (read_store_whole arg6 _ _ _).trans ?_
  rw [load_whole arg3 harg3 x0, load_whole arg4 harg4 x1, load_whole arg6 harg6 xs]

set_option maxHeartbeats 1000000 in
/-- THE LAST STEP of a contraction. The accumulator at xs: the body leaves in it xs plus the product of the
    two blocks, reads that back and stores it into the output block, whatever that held. -/
theorem run_last (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬atFirstStep i) (hc1 : atLastStep i)
    (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%di, %fi, -, HI⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr
    swap; · iexact HI
    ipureintro
    sl_unfold_words
    refine (read_store_whole arg5 _ _ _).trans ?_
    rw [load_store_whole arg6, load_whole arg3 harg3 x0, load_whole arg4 harg4 x1, load_whole arg6 harg6 xs]
  iexists _; isplitr
  swap; · iexact HS
  ipureintro
  sl_unfold_words
  refine (read_store_whole arg6 _ _ _).trans ?_
  rw [load_whole arg3 harg3 x0, load_whole arg4 harg4 x1, load_whole arg6 harg6 xs]

/-! ## The invariant, position by position -/

theorem PhiS_zero (c : Dev nD) (n : ℕ) (h : n ≤ cfg1.N) (hz : n = 0) : PhiS V c n h = Pipeline.ΦA spec1 c := by
  subst hz; rfl

/-- After point n: the accumulator at that point's contents. -/
theorem PhiS_succ (c : Dev nD) (n : ℕ) (hn : n < cfg1.N) :
    PhiS V c (n + 1) hn = iprop(iprop(idleScoped c ∗ owns (c : Thread nD τ) scM1 fullShare (accAt V c n hn)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(idleScoped c ∗ owns (c : Thread nD τ) scM1 fullShare (accAt V c (n - 1) (by omega))) ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- What the launch hands the region, with the accumulator set apart from the other scoped buffers: one way, -/
theorem PhiA1_open (c : Dev nD) :
    (Pipeline.ΦA spec1 c : sProp 𝕄)
      ⊢ iprop(iprop(idleScoped c ∗ (∃ d, owns (c : Thread nD τ) scM1 fullShare d)) ∗ (∃ r, prngReg c r)) := by
  unfold Pipeline.ΦA idleScoped; rw [scopedRest1_eq]; simp only [scM1, owns_whole]
  iintro ⟨⟨A0, A1, A2, A3, A4, A5, A6, A7, A8, A9, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact HS
  · iexact Hg

/-- the other, -/
theorem PhiA1_close (c : Dev nD) :
    iprop(iprop(idleScoped c ∗ (∃ d, owns (c : Thread nD τ) scM1 fullShare d)) ∗ (∃ r, prngReg c r))
      ⊢ (Pipeline.ΦA spec1 c : sProp 𝕄) := by
  unfold Pipeline.ΦA idleScoped; rw [scopedRest1_eq]; simp only [scM1, owns_whole]
  iintro ⟨⟨⟨A0, A1, A2, A3, A4, A5, A6, A7, A8, A9⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  · iexact Hg

/-- and so as an equation. -/
theorem PhiA1_eq (c : Dev nD) :
    (Pipeline.ΦA spec1 c : sProp 𝕄)
      = iprop(iprop(idleScoped c ∗ (∃ d, owns (c : Thread nD τ) scM1 fullShare d)) ∗ (∃ r, prngReg c r)) :=
  Idealize.SL.BI.Entails.antisymm (PhiA1_open c) (PhiA1_close c)

/-! ## What the body finds in the input windows -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Each input's current staging buffer holds its block at every point, fetched there or not: where the pipeline
    does not fetch, the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation at a generic point -/

/-- Each window's current staging memref at point t, as the pipeline passes it to the body, and its wholeness. -/
abbrev aBuf (t : Fin cfg1.N) : Memref sig .tc .vmem S1024x1024 .bf16 := win1_0.stage (cfg1.slots t 0)
abbrev aBufWhole (t : Fin cfg1.N) : (aBuf t).IsWhole := hstage1_0 ((cfg1.slots t 0).cast nbuf1_0)
abbrev bBuf (t : Fin cfg1.N) : Memref sig .tc .vmem S1024x1024 .bf16 := win1_1.stage (cfg1.slots t 1)
abbrev bBufWhole (t : Fin cfg1.N) : (bBuf t).IsWhole := hstage1_1 ((cfg1.slots t 1).cast nbuf1_1)
abbrev outBuf (t : Fin cfg1.N) : Memref sig .tc .vmem S1024x1024 .f32 := win1_2.stage (cfg1.slots t 2)
abbrev outBufWhole (t : Fin cfg1.N) : (outBuf t).IsWhole := hstage1_2 ((cfg1.slots t 2).cast nbuf1_2)

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (aBuf t) fullShare ((dat1 V c).before 0 t d))
    ∗ (∃ d, owns (c : Thread nD τ) (bBuf t) fullShare ((dat1 V c).before 1 t d))
    ∗ (∃ d, owns (c : Thread nD τ) (outBuf t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 8 says which step of a
    contraction the point is. At a first step the accumulator may hold anything (at the region's very first point
    it comes out of the launch's scoped rest, later from the invariant) and ends at zero plus the product; at a
    later step it holds what the point before left and ends at that plus the product — the two arms of the
    accumulation. Off the last step the output buffer goes back as it came; at the last step it ends at the
    accumulator. The other scoped buffers, the generator register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (aBuf t) fullShare ((dat1 V c).after 0 t) from by
    unfold Dat.leavesExact; rw [aLive t], after1_0]
  rw [show (dat1 V c).leavesExact 1 t = owns (c : Thread nD τ) (bBuf t) fullShare ((dat1 V c).after 1 t) from by
    unfold Dat.leavesExact; rw [bLive t], after1_1]
  have hN : t.val < 128 := lt_of_lt_of_eq t.isLt (show cfg1.N = 128 from N_1)
  by_cases h0 : t.val % 8 = 0
  · have h1 : ¬t.val % 8 = 7 := by omega
    have hfirst : atFirstStep (grid1.coords t) := (atFirstStep_iff t).mpr h0
    have hnotlast : ¬atLastStep (grid1.coords t) := fun h => h1 ((atLastStep_iff t).mp h)
    rw [Dat.leavesExact_idle (dat1 V c) 2 t (outIdle t hnotlast) (outKept t hnotlast)]
    rw [accAt_first V c t h0]
    by_cases hz : t.val = 0
    · rw [PhiS_castSucc V c t, PhiS_zero V c _ _ hz, PhiA1_eq]
      iintro ⟨⟨⟨HR, HS⟩, Hg⟩, Ho, ⟨%d0, H0⟩, ⟨%d1, H1⟩, ⟨%d2, H2⟩⟩
      iapply (run_first c (grid1.coords t) _ _ _ _ _ _ _ _ hfirst hnotlast (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HS⟩, Hg⟩, Ho, ⟨%d0, H0⟩, ⟨%d1, H1⟩, ⟨%d2, H2⟩⟩
      iapply (run_first c (grid1.coords t) _ _ _ _ _ _ _ _ hfirst hnotlast (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2
  · have hz : t.val ≠ 0 := fun h => h0 (by rw [h])
    have hnotfirst : ¬atFirstStep (grid1.coords t) := fun h => h0 ((atFirstStep_iff t).mp h)
    rw [accAt_later V c t h0]
    rw [PhiS_castSucc V c t, PhiS_pos V c _ _ hz]
    by_cases h1 : t.val % 8 = 7
    · have hlast : atLastStep (grid1.coords t) := (atLastStep_iff t).mpr h1
      rw [show (dat1 V c).leavesExact 2 t = owns (c : Thread nD τ) (outBuf t) fullShare ((dat1 V c).after 2 t) from by
        unfold Dat.leavesExact; rw [outLive t hlast], after1_2, accAt_later V c t h0]
      iintro ⟨⟨⟨HR, HS⟩, Hg⟩, Ho, ⟨%d0, H0⟩, ⟨%d1, H1⟩, ⟨%d2, H2⟩⟩
      iapply (run_last c (grid1.coords t) _ _ _ _ _ _ _ _ hnotfirst hlast (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexact H2
    · have hnotlast : ¬atLastStep (grid1.coords t) := fun h => h1 ((atLastStep_iff t).mp h)
      rw [Dat.leavesExact_idle (dat1 V c) 2 t (outIdle t hnotlast) (outKept t hnotlast)]
      iintro ⟨⟨⟨HR, HS⟩, Hg⟩, Ho, ⟨%d0, H0⟩, ⟨%d1, H1⟩, ⟨%d2, H2⟩⟩
      iapply (run_middle c (grid1.coords t) _ _ _ _ _ _ _ _ hnotfirst hnotlast (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped rest back: the accumulator's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hN, PhiA1_eq]
  iintro ⟨⟨HR, HS⟩, Hg⟩
  isplitr [Hg]
  · isplitl [HR]; · iexact HR
    iexists _; iexact HS
  · iexact Hg

end Cert.Kernel.Fr

end
-- ==== Proof.K.Launch.lean ====
/- The run of the whole program: the two kernel regions and the two stretches of host operations after them, as
   segments of one launch. The buffers' contents are folded through the program: region 0 leaves the difference
   and quotient arrays, region 1 the Gram matrix, the host stretches their results; every unscoped buffer is read
   back at the end, so both the frame (the arguments unchanged) and the result's value follow. -/
import proofs.«164337_j20615843021101_1_alg».proof.Proof.K.Shared
import proofs.«164337_j20615843021101_1_alg».proof.Proof.K.Acc
import proofs.«164337_j20615843021101_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: the two result arrays at what the write-backs leave, every other buffer as launched. -/
def W1 (c : Dev nD) : Valuation τ sig (Elt F) :=
  Function.update (Function.update (W0 m ρ c) (Proc.devRef .tc main_v0_0) ((dat0 (V0 m ρ) c).arrAt 3 cfg0.N))
    (Proc.devRef .tc main_v0_1) ((dat0 (V0 m ρ) c).arrAt 4 cfg0.N)
abbrev V1 : (c : Dev nD) → (b : Ref sig .tc) → Buf (Elt F) ((c : Thread nD τ).loc b) := fun c b => W1 m ρ c b

theorem W1_v0_1 (c : Dev nD) : W1 m ρ c (Proc.devRef .tc main_v0_1) = (dat0 (V0 m ρ) c).arrAt 4 cfg0.N := by
  unfold W1; exact Function.update_self ..
theorem W1_v0_0 (c : Dev nD) : W1 m ρ c (Proc.devRef .tc main_v0_0) = (dat0 (V0 m ρ) c).arrAt 3 cfg0.N := by
  unfold W1
  rw [Function.update_of_ne (StableHlo.devRef_ne_of_ne (by decide) : (Proc.devRef .tc main_v0_0 : DevRef τ sig) ≠ Proc.devRef .tc main_v0_1)]
  exact Function.update_self ..
theorem W1_of_ne (c : Dev nD) (b : Ref sig .tc) (h0 : b ≠ main_v0_0) (h1 : b ≠ main_v0_1) :
    W1 m ρ c (Proc.devRef .tc b) = W0 m ρ c (Proc.devRef .tc b) := by
  unfold W1
  rw [Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]

/-- After region 1: the Gram array at what the write-backs leave. -/
def W2 (c : Dev nD) : Valuation τ sig (Elt F) :=
  Function.update (W1 m ρ c) (Proc.devRef .tc main_v1) ((dat1 (V1 m ρ) c).arrAt 2 cfg1.N)
abbrev V2 : (c : Dev nD) → (b : Ref sig .tc) → Buf (Elt F) ((c : Thread nD τ).loc b) := fun c b => W2 m ρ c b

theorem W2_v1 (c : Dev nD) : W2 m ρ c (Proc.devRef .tc main_v1) = (dat1 (V1 m ρ) c).arrAt 2 cfg1.N := by
  unfold W2; exact Function.update_self ..
theorem W2_of_ne (c : Dev nD) (b : Ref sig .tc) (h : b ≠ main_v1) :
    W2 m ρ c (Proc.devRef .tc b) = W1 m ρ c (Proc.devRef .tc b) := by
  unfold W2
  rw [Function.update_of_ne (StableHlo.devRef_ne_of_ne h : (Proc.devRef .tc b : DevRef τ sig) ≠ Proc.devRef .tc main_v1)]

/-- After the trace's operations, and after the closing ones. -/
abbrev W3 : Dev nD → Valuation τ sig (Elt F) := fun c => StableHlo.after hostOps2 (W2 m ρ c)
abbrev W4 : Dev nD → Valuation τ sig (Elt F) := fun c => StableHlo.after hostOps2_1 (W3 m ρ c)

/-! ## What each region's arrays hold at its exit, and what it leaves alone -/

theorem exit0_0 (c : Dev nD) : (dat0 (V0 m ρ) c).arrAt 0 cfg0.N = V1 m ρ c main_arg0 :=
  (((dat0 (V0 m ρ) c).arrAt_in 0 rfl _).trans (A_eq0 (V0 m ρ) c 0)).trans (W1_of_ne m ρ c main_arg0 (by decide) (by decide)).symm
theorem exit0_1 (c : Dev nD) : (dat0 (V0 m ρ) c).arrAt 1 cfg0.N = V1 m ρ c main_arg0 :=
  (((dat0 (V0 m ρ) c).arrAt_in 1 rfl _).trans (A_eq0 (V0 m ρ) c 1)).trans (W1_of_ne m ρ c main_arg0 (by decide) (by decide)).symm
theorem exit0_2 (c : Dev nD) : (dat0 (V0 m ρ) c).arrAt 2 cfg0.N = V1 m ρ c main_arg1 :=
  (((dat0 (V0 m ρ) c).arrAt_in 2 rfl _).trans (A_eq0 (V0 m ρ) c 2)).trans (W1_of_ne m ρ c main_arg1 (by decide) (by decide)).symm
theorem exit0_3 (c : Dev nD) : (dat0 (V0 m ρ) c).arrAt 3 cfg0.N = V1 m ρ c main_v0_0 := (W1_v0_0 m ρ c).symm
theorem exit0_4 (c : Dev nD) : (dat0 (V0 m ρ) c).arrAt 4 cfg0.N = V1 m ρ c main_v0_1 := (W1_v0_1 m ρ c).symm
theorem rest0 (c : Dev nD) : ∀ b, b ∉ Finset.univ.image (Pipeline.arrRef spec0) → V1 m ρ c b = V0 m ρ c b := fun b hb =>
  W1_of_ne m ρ c b (fun e => hb (e ▸ by decide)) (fun e => hb (e ▸ by decide))

theorem exit1 (c : Dev nD) (w : Fin cfg1.W) : (dat1 (V1 m ρ) c).arrAt w cfg1.N = V2 m ρ c (Pipeline.arrRef spec1 w) := by
  match w with
  | ⟨0, _⟩ => exact (((dat1 (V1 m ρ) c).arrAt_in 0 rfl _).trans (A_eq1 (V1 m ρ) c 0)).trans (W2_of_ne m ρ c main_v0_0 (by decide)).symm
  | ⟨1, _⟩ => exact (((dat1 (V1 m ρ) c).arrAt_in 1 rfl _).trans (A_eq1 (V1 m ρ) c 1)).trans (W2_of_ne m ρ c main_v0_1 (by decide)).symm
  | ⟨2, _⟩ => exact (W2_v1 m ρ c).symm
theorem rest1 (c : Dev nD) : ∀ b, b ∉ Finset.univ.image (Pipeline.arrRef spec1) → V2 m ρ c b = V1 m ρ c b := fun b hb =>
  W2_of_ne m ρ c b (fun e => hb (e ▸ by decide))

/-! ## The proof data family and the thread state -/

abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0: entered from every unscoped buffer as launched, left with the two result arrays written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄)
        ⊢ iprop((pdats m ρ 0 c).arrays ((pdats m ρ 0 c).arrAt · 0) ∗ Pipeline.unscopedRest spec0 c (V0 m ρ c)) :=
      arrays_of_bufs0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V0 m ρ c))
        ⊢ (unscopedBufs c (V1 m ρ c) : sProp 𝕄) :=
      bufs_of_arrays0 (V0 m ρ) c (V1 m ρ c) ((dat0 (V0 m ρ) c).arrAt · cfg0.N)
        (exit0_0 m ρ c) (exit0_1 m ρ c) (exit0_2 m ρ c) (exit0_3 m ρ c) (exit0_4 m ρ c) (rest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1: entered from what region 0 left, left with the Gram array written; the accumulator scratch goes
    into the invariant at the first point and comes back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop(Pipeline.scopedRest spec1 c ∗ ∃ r, prngReg c r) ⊢ ((pdats m ρ 1 c).Φ 0 : sProp 𝕄) := by
      have h := hin1 (V1 m ρ) c; unfold Pipeline.ΦA at h; exact h
    iintro ⟨Hp, -, Hr⟩
    iapply hA
    isplitl [Hr]; · iexact Hr
    iexact Hp
  hout c := by
    rw [Pipeline.ownSems0_none]
    have hB : ((pdats m ρ 1 c).Φ (Fin.last _) : sProp 𝕄) ⊢ iprop(Pipeline.scopedRest spec1 c ∗ ∃ r, prngReg c r) := by
      have h := hout1 (V1 m ρ) c; unfold Pipeline.ΦA at h; exact h
    iintro H
    ihave H' := hB $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (exit1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the folded contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_keeps (c : Dev nD) (b : Ref sig .tc) (h4 : b ∉ hostOps2_1_W) (h3 : b ∉ hostOps2_W) (h2 : b ≠ main_v1)
    (h0 : b ≠ main_v0_0) (h1 : b ≠ main_v0_1) : W4 m ρ c (Proc.devRef .tc b) = m ((c : Thread nD τ).loc b) :=
  calc W4 m ρ c (Proc.devRef .tc b)
    _ = W3 m ρ c (Proc.devRef .tc b) := StableHlo.after_of_writes_sub hostOps2_1 _ hostOps2_1_writes h4
    _ = W2 m ρ c (Proc.devRef .tc b) := StableHlo.after_of_writes_sub hostOps2 _ hostOps2_writes h3
    _ = W1 m ρ c (Proc.devRef .tc b) := W2_of_ne m ρ c b h2
    _ = W0 m ρ c (Proc.devRef .tc b) := W1_of_ne m ρ c b h0 h1
    _ = m ((c : Thread nD τ).loc b) := rfl

/-- THE FRAME: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_keeps m ρ c main_arg0 (by decide) (by decide) (by decide) (by decide) (by decide)),
     (h c _ (mem_uc main_arg1 (by decide))).trans (W4_keeps m ρ c main_arg1 (by decide) (by decide) (by decide) (by decide) (by decide))⟩)
    (run_all m ρ)

end Cert.Kernel.Fr

end
-- ==== Proof.KI.Prep.lean ====
/- Region 0 (the elementwise stage): what one grid point of the kernel leaves in its two output blocks,
   the region's proof data, and the body obligation, at any float instance and at any entry contents V. -/
import proofs.«164337_j20615843021101_1_alg».proof.Proof.Gen.KernelIdeal.Launch
import proofs.«164337_j20615843021101_1_alg».proof.Proof.Gen.KernelIdeal.Skeleton
import proofs.«164337_j20615843021101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body touches: a whole 512 x 1024 block. -/
abbrev r0 : Rect S512x1024 := Rect.unit (s := S512x1024) ![0, 0] S512x1024.size inb_S512x1024_S512x1024_0_0

/-- The difference block mean - targets, as the body stores it. -/
def out0_3 (x0 x2 : Vec F S512x1024 .f32) : Vec F S512x1024 .bf16 :=
  View.canon [⟨r0, k0_pay2 (View.ld x0 r0) (View.ld x2 r0)⟩]

/-- The quotient block (mean - targets) / var, as the body stores it. -/
def out0_4 (x0 x1 x2 : Vec F S512x1024 .f32) : Vec F S512x1024 .bf16 :=
  View.canon [⟨r0, k0_pay3 (View.ld x0 r0) (View.ld x1 r0) (View.ld x2 r0)⟩]

/-- Region 0's proof data: inputs keep their blocks, the outputs hold the two stored blocks; the two input
    windows on the one array hold complementary halves of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-! ## The input windows' staging buffers hold their blocks -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The mean window's staging buffer holds the mean block of the point, fetched there or carried over. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The variance window's staging buffer holds the variance block of the point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The targets window's staging buffer holds the targets block of the point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## One store of the whole block covers the block -/

/-- A single piece on the whole-block rectangle reaches every index of the block. -/
theorem cover0 (p0 : Vec F S512x1024 .bf16) (y : S512x1024.Idx) :
    ∃ pc ∈ ([⟨r0, p0⟩] : List (View.Piece (Elt F) S512x1024 .bf16)), y ∈ pc.1.set :=
  View.cover_of_tiled [⟨r0, p0⟩] S512x1024.size (by rfl) y

/-! ## The body's triple -/

set_option maxHeartbeats 1000000 in
/-- The body on five whole staging memrefs: the three inputs at read contents x0 (mean), x1 (variance), x2 (targets),
    the two outputs at anything. It reads the three inputs, reads and then overwrites each output whole, and ends with
    the inputs as they were, the first output at the rounded difference and the second at the rounded quotient. -/
theorem sound_kernel0 (c : Dev nD) (E : Set ℕ) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .bf16) (harg6 : arg6.IsWhole)
    (x0 x1 x2 : Vec F S512x1024 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x2)
            ∗ owns (c : Thread nD τ) arg6 fullShare (out0_4 x0 x1 x2)) -∗ K ⟨⟩))
      ⊢ wp frame (wpE (defs₀ (F := F)) Variants.none c none) E
          (cc0__prep_kernel i arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  · iexists _; isplitr
    swap; · iexact H4
    ipureintro
    exact View.read_writes_eq_canon _ _ _ (cover0 _)

/-! ## The body obligation, at a generic point -/

/-- What the body is called with at point t: the invariant, what the core owes, and the five current staging buffers,
    the inputs' at what they hold and the outputs' at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debts, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three input buffers hold their blocks, so the triple above applies at those blocks;
    the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Shared.lean ====
/- Region 0 reads ONE array through two windows (its left and right column halves). The array's full share is
   dealt to the two windows as complementary halves at the region's entry and put together again at its exit. -/
import proofs.«164337_j20615843021101_1_alg».proof.Proof.KI.Prep

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 0's five windows. -/
theorem arrRefs0 : Finset.univ.image (Pipeline.arrRef spec0)
    = ([main_arg0, main_arg1, main_v0_0, main_v0_1] : List (Ref sig .tc)).toFinset := by decide

/-- Those buffers, each whole at the full share, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg0) ↦{fullShare} U main_arg0) ∗ (((c : Thread nD τ).loc main_arg1) ↦{fullShare} U main_arg1)
          ∗ (((c : Thread nD τ).loc main_v0_0) ↦{fullShare} U main_v0_0) ∗ (((c : Thread nD τ).loc main_v0_1) ↦{fullShare} U main_v0_1)) := by
  unfold Pipeline.arrBufs
  exact bigSep_eq_bigSepL_of_eq _ arrRefs0 (by decide) _

/-- The proof data's arrays, window by window: the shared array twice, at the two halves of its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2)
          ∗ (((c : Thread nD τ).loc main_v0_0) ↦{fullShare} G 3) ∗ (((c : Thread nD τ).loc main_v0_1) ↦{fullShare} G 4)) := by
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl, show (dat0 V c).share 4 = fullShare from rfl]
  rw [(arr_whole0 0).set_eq_univ, (arr_whole0 2).set_eq_univ, (arr_whole0 3).set_eq_univ, (arr_whole0 4).set_eq_univ]

/-- A whole buffer at the full share is the same buffer held twice, at the two halves of the share. -/
theorem halves (c : Dev nD) (f : Buf (Elt F) ((c : Thread nD τ).loc main_arg0)) :
    ((((c : Thread nD τ).loc main_arg0) ↦{fullShare} f) : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-- ENTRY: a core's unscoped buffers at contents V are region 0's arrays at those contents, the shared array
    dealt to its two windows as the two halves of the full share, and the unscoped rest. -/
theorem arrays_of_bufs0 (c : Dev nD) :
    (unscopedBufs c (V c) : sProp 𝕄) ⊢ iprop((dat0 V c).arrays (dat0 V c).A ∗ Pipeline.unscopedRest spec0 c (V c)) := by
  have hsp : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [hsp, arrBufs0_eq, arrays0_eq]
  have hsh := (halves (F := F) c (V c main_arg0)).1
  iintro ⟨⟨H0, H1, H3, H4⟩, Hr⟩
  ihave H0' := hsh $$ H0
  icases H0' with ⟨Ha, Hb⟩
  isplitr [Hr]
  · isplitl [Ha]; · iexact Ha
    isplitl [Hb]; · iexact Hb
    isplitl [H1]; · iexact H1
    isplitl [H3]; · iexact H3
    iexact H4
  · iexact Hr

/-- EXIT: region 0's arrays — the two windows on the shared array holding ONE contents, the outputs theirs —
    and the unscoped rest at V are the core's unscoped buffers at any valuation V' that has those contents at the
    four buffers and agrees with V elsewhere. -/
theorem bufs_of_arrays0 (c : Dev nD) (V' : (b : Ref sig .tc) → Buf (Elt F) ((c : Thread nD τ).loc b))
    (G : (w : Fin cfg0.W) → Buf (Elt F) ((cfg0.win w).arr.view.loc (c : Thread nD τ)))
    (h0 : G 0 = V' main_arg0) (h1 : G 1 = V' main_arg0) (h2 : G 2 = V' main_arg1) (h3 : G 3 = V' main_v0_0) (h4 : G 4 = V' main_v0_1)
    (hrest : ∀ b, b ∉ Finset.univ.image (Pipeline.arrRef spec0) → V' b = V c b) :
    iprop((dat0 V c).arrays G ∗ Pipeline.unscopedRest spec0 c (V c)) ⊢ (unscopedBufs c V' : sProp 𝕄) := by
  have hsp : (unscopedBufs c V' : sProp 𝕄) = iprop(Pipeline.arrBufs spec0 c V' ∗ Pipeline.unscopedRest spec0 c V') :=
    Pipeline.unscopedBufs_split₀ cfgs 0 winFacts₀0.arr_unscoped c V'
  rw [hsp, arrBufs0_eq, arrays0_eq, h0, h1, h2, h3, h4]
  have hsh := (halves (F := F) c (V' main_arg0)).2
  iintro ⟨⟨Ha, Hb, H1, H3, H4⟩, Hr⟩
  isplitr [Hr]
  · isplitl [Ha Hb]
    · iapply hsh
      isplitl [Ha]; · iexact Ha
      iexact Hb
    isplitl [H1]; · iexact H1
    isplitl [H3]; · iexact H3
    iexact H4
  · unfold Pipeline.unscopedRest
    iapply (Entails.of_eq (bigSep_congr fun b hb => by rw [hrest b (Finset.mem_sdiff.mp hb).2]))
    iexact Hr

end Cert.KernelIdeal.Fr

end
-- ==== Proof.KI.Acc.lean ====
/- Region 1 (the blocked product): the accumulator block after each grid point, the region's proof data with the
   accumulator carried in the invariant, and the body obligation, at any float instance and any entry contents V. -/
import proofs.«164337_j20615843021101_1_alg».proof.Proof.Gen.KernelIdeal.Launch
import proofs.«164337_j20615843021101_1_alg».proof.Proof.Gen.KernelIdeal.Skeleton
import proofs.«164337_j20615843021101_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a whole memref. -/
abbrev scM1 : Memref sig .tc .vmem S1024x1024 .f32 := Memref.whole cc1_scratch0

/-- THE ACCUMULATION: what the scratch holds after grid point n. The last grid axis (extent 8) is the
    contraction's block index: at its first step the accumulator restarts from zero plus this step's product,
    at every later step it is the previous point's accumulator plus this step's product. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact (if_pos h).trans rfl

theorem accAt_later (c : Dev nD) (t : Fin cfg1.N) (h : ¬ t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The core's scoped buffers that this region neither stages through nor accumulates in — the ten staging
    buffers of the elementwise stage before it —, each whole at some contents: the region holds them from its
    first point to its last and hands them back. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before position n: at the start the scoped rest as the launch hands it; afterwards the
    stage before's staging buffers at some contents, the accumulator at what the point before left, and the
    generator register at some state. -/
def PhiS (c : Dev nD) : (n : ℕ) → n ≤ cfg1.N → sProp 𝕄
  | 0, _ => Pipeline.ΦA spec1 c
  | n + 1, hn => iprop(iprop(idleScoped c ∗ owns (c : Thread nD τ) scM1 fullShare (accAt V c n hn)) ∗ (∃ r, prngReg c r))

/-- Region 1's proof data: inputs keep their blocks; the output window's buffer is named at the accumulator
    (it is written, and written back, only at the last contraction step). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = accAt V c t.val t.isLt := by dsimp only [dat1]

/-! ## The body's two branches and where they are taken -/

/-- The body's first branch (zero the accumulator): taken where the contraction's block index is zero. -/
abbrev atFirstStep (i : grid1.Coords) : Prop :=
  (Scalar.cmpi .ne (Scalar.extui (Scalar.cmpi .eq (BitVec.ofNat 32 (i 2).val) 0#32)) 0#32) = 1#1
/-- The body's second branch (copy the accumulator out): taken where the contraction's block index is the last, seven. -/
abbrev atLastStep (i : grid1.Coords) : Prop := k1_cond2 i = 1#1

/-- The contraction's block index is the point's position modulo 8: the first branch is taken at the points
    ≡ 0 (mod 8), -/
theorem atFirstStep_iff : ∀ t : Fin cfg1.N, atFirstStep (grid1.coords t) ↔ t.val % 8 = 0 :=
  (by decide +kernel : ∀ t : Fin grid1.N, atFirstStep (grid1.coords t) ↔ t.val % 8 = 0)
/-- the second at the points ≡ 7 (mod 8). -/
theorem atLastStep_iff : ∀ t : Fin cfg1.N, atLastStep (grid1.coords t) ↔ t.val % 8 = 7 :=
  (by decide +kernel : ∀ t : Fin grid1.N, atLastStep (grid1.coords t) ↔ t.val % 8 = 7)

/-- The two input windows are never idle. -/
theorem aLive : ∀ t : Fin cfg1.N, cfg1.idle 0 (grid1.coords t) = false := by decide +kernel
theorem bLive : ∀ t : Fin cfg1.N, cfg1.idle 1 (grid1.coords t) = false := by decide +kernel
/-- Off the last step of a contraction the output window is idle, and its block is not written back; -/
theorem outIdle : ∀ t : Fin cfg1.N, ¬atLastStep (grid1.coords t) → cfg1.idle 2 (grid1.coords t) = true := by decide +kernel
theorem outKept : ∀ t : Fin cfg1.N, ¬atLastStep (grid1.coords t) → (cfg1.win 2).flush t = false := by decide +kernel
/-- at the last step it is live. -/
theorem outLive : ∀ t : Fin cfg1.N, atLastStep (grid1.coords t) → cfg1.idle 2 (grid1.coords t) = false := by decide +kernel

/-! ## Whole-block loads and stores -/

/-- The blocks' rectangles start at the origin. -/
theorem zeroOffsets : (![0, 0] : Fin 2 → Nat) = fun _ => 0 := funext fun a => by fin_cases a <;> rfl

/-- The one rectangle the body loads and stores through: a whole 1024 x 1024 block. -/
abbrev wholeBlock : Rect S1024x1024 := Rect.unit (s := S1024x1024) ![0, 0] S1024x1024.size inb_S1024x1024_S1024x1024_0_0

/-- Every index of a block lies in it. -/
theorem inWholeBlock (y : S1024x1024.Idx) : y ∈ wholeBlock.set :=
  View.mem_set_unit_zero zeroOffsets inb_S1024x1024_S1024x1024_0_0 y

/-- A load of a whole block, of a buffer whose contents read x, reads x. -/
theorem load_whole {e : EltTy} (m : Memref sig .tc .vmem S1024x1024 e) (hm : m.IsWhole) (x : S1024x1024.Idx → Elt F e) :
    View.readAt (Elt F) m.view wholeBlock.toLoadRect (hm.unread x) = x := by
  rw [View.readAt_eq_ld, hm.read_unread, View.ld_unit_zero zeroOffsets]

/-- After a store of a whole block, whatever was stored before, the buffer reads what was stored. -/
theorem read_store_whole {e : EltTy} (m : Memref sig .tc .vmem S1024x1024 e) (f : m.view.ty.Contents (Elt F))
    (w : S1024x1024.Idx → Elt F e) (L : List (View.Piece (Elt F) S1024x1024 e)) :
    m.view.read (Elt F) (m.view.writes (Elt F) f ((⟨wholeBlock, w⟩ : View.Piece (Elt F) S1024x1024 e) :: L)) = w := by
  rw [View.read_writes_eq_canon m.view f _ (fun y => ⟨⟨wholeBlock, w⟩, List.mem_cons_self, inWholeBlock y⟩),
    View.canon_cons_unit_zero zeroOffsets]

/-- A load of a whole block after one store of a whole block reads what was stored. -/
theorem load_store_whole {e : EltTy} (m : Memref sig .tc .vmem S1024x1024 e)
    (w : S1024x1024.Idx → Elt F e) :
    m.view.readCov [(⟨wholeBlock, w⟩ : View.Piece (Elt F) S1024x1024 e)] wholeBlock.toLoadRect = w :=
  View.readCov_unit_zero m.view zeroOffsets inb_S1024x1024_S1024x1024_0_0 w

/-! ## The body, step by step of a contraction -/

set_option maxHeartbeats 1000000 in
/-- THE FIRST STEP of a contraction. Both input blocks at x0, x1, the output block at anything (handed back
    untouched), the accumulator at anything: the body zeroes the accumulator, reads it back, and leaves in it
    zero plus the product of the two blocks. -/
theorem run_first (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : atFirstStep i) (hc1 : ¬atLastStep i)
    (x0 x1 : Vec F S1024x1024 .bf16) (xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ (∃ d, owns (c : Thread nD τ) arg6 fullShare d)
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fi, %hfi, HI⟩, ⟨%ds, %fs, -, HS⟩, Hk⟩
  obtain rfl := harg3.eq_unread hf0; obtain rfl := harg4.eq_unread hf1
  obtain rfl := harg5.eq_unread hfi
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr; · ipureintro; exact harg5.read_unread _
    iexact HI
  iexists _; isplitr
  swap; · iexact HS
  ipureintro
  sl_unfold_words
  refine (read_store_whole arg6 _ _ _).trans ?_
  rw [load_whole arg3 harg3 x0, load_whole arg4 harg4 x1, load_store_whole arg6 (k1_pay1 (F := F))]

set_option maxHeartbeats 1000000 in
/-- A MIDDLE STEP of a contraction. The accumulator at xs, what the step before left: the body leaves in it
    xs plus the product of the two blocks, and leaves the output block untouched. -/
theorem run_middle (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬atFirstStep i) (hc1 : ¬atLastStep i)
    (x0 x1 : Vec F S1024x1024 .bf16) (xi xs : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare xs
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fi, %hfi, HI⟩, ⟨%fs, %hfs, HS⟩, Hk⟩
  obtain rfl := harg3.eq_unread hf0; obtain rfl := harg4.eq_unread hf1
  obtain rfl := harg5.eq_unread hfi; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr; · ipureintro; exact harg5.read_unread _
    iexact HI
  iexists _; isplitr
  swap; · iexact HS
  ipureintro
  refine (read_store_whole arg6 _ _ _).trans ?_
  rw [load_whole arg3 harg3 x0, load_whole arg4 harg4 x1, load_whole arg6 harg6 xs]

set_option maxHeartbeats 1000000 in
/-- THE LAST STEP of a contraction. The accumulator at xs: the body leaves in it xs plus the product of the
    two blocks, reads that back and stores it into the output block, whatever that held. -/
theorem run_last (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬atFirstStep i) (hc1 : atLastStep i)
    (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%di, %fi, -, HI⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [HI]
  · iexists _; isplitr
    swap; · iexact HI
    ipureintro
    sl_unfold_words
    refine (read_store_whole arg5 _ _ _).trans ?_
    rw [load_store_whole arg6, load_whole arg3 harg3 x0, load_whole arg4 harg4 x1, load_whole arg6 harg6 xs]
  iexists _; isplitr
  swap; · iexact HS
  ipureintro
  sl_unfold_words
  refine (read_store_whole arg6 _ _ _).trans ?_
  rw [load_whole arg3 harg3 x0, load_whole arg4 harg4 x1, load_whole arg6 harg6 xs]

/-! ## The invariant, position by position -/

theorem PhiS_zero (c : Dev nD) (n : ℕ) (h : n ≤ cfg1.N) (hz : n = 0) : PhiS V c n h = Pipeline.ΦA spec1 c := by
  subst hz; rfl

/-- After point n: the accumulator at that point's contents. -/
theorem PhiS_succ (c : Dev nD) (n : ℕ) (hn : n < cfg1.N) :
    PhiS V c (n + 1) hn = iprop(iprop(idleScoped c ∗ owns (c : Thread nD τ) scM1 fullShare (accAt V c n hn)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(idleScoped c ∗ owns (c : Thread nD τ) scM1 fullShare (accAt V c (n - 1) (by omega))) ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- What the launch hands the region, with the accumulator set apart from the other scoped buffers: one way, -/
theorem PhiA1_open (c : Dev nD) :
    (Pipeline.ΦA spec1 c : sProp 𝕄)
      ⊢ iprop(iprop(idleScoped c ∗ (∃ d, owns (c : Thread nD τ) scM1 fullShare d)) ∗ (∃ r, prngReg c r)) := by
  unfold Pipeline.ΦA idleScoped; rw [scopedRest1_eq]; simp only [scM1, owns_whole]
  iintro ⟨⟨A0, A1, A2, A3, A4, A5, A6, A7, A8, A9, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact HS
  · iexact Hg

/-- the other, -/
theorem PhiA1_close (c : Dev nD) :
    iprop(iprop(idleScoped c ∗ (∃ d, owns (c : Thread nD τ) scM1 fullShare d)) ∗ (∃ r, prngReg c r))
      ⊢ (Pipeline.ΦA spec1 c : sProp 𝕄) := by
  unfold Pipeline.ΦA idleScoped; rw [scopedRest1_eq]; simp only [scM1, owns_whole]
  iintro ⟨⟨⟨A0, A1, A2, A3, A4, A5, A6, A7, A8, A9⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  · iexact Hg

/-- and so as an equation. -/
theorem PhiA1_eq (c : Dev nD) :
    (Pipeline.ΦA spec1 c : sProp 𝕄)
      = iprop(iprop(idleScoped c ∗ (∃ d, owns (c : Thread nD τ) scM1 fullShare d)) ∗ (∃ r, prngReg c r)) :=
  Idealize.SL.BI.Entails.antisymm (PhiA1_open c) (PhiA1_close c)

/-! ## What the body finds in the input windows -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Each input's current staging buffer holds its block at every point, fetched there or not: where the pipeline
    does not fetch, the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation at a generic point -/

/-- Each window's current staging memref at point t, as the pipeline passes it to the body, and its wholeness. -/
abbrev aBuf (t : Fin cfg1.N) : Memref sig .tc .vmem S1024x1024 .bf16 := win1_0.stage (cfg1.slots t 0)
abbrev aBufWhole (t : Fin cfg1.N) : (aBuf t).IsWhole := hstage1_0 ((cfg1.slots t 0).cast nbuf1_0)
abbrev bBuf (t : Fin cfg1.N) : Memref sig .tc .vmem S1024x1024 .bf16 := win1_1.stage (cfg1.slots t 1)
abbrev bBufWhole (t : Fin cfg1.N) : (bBuf t).IsWhole := hstage1_1 ((cfg1.slots t 1).cast nbuf1_1)
abbrev outBuf (t : Fin cfg1.N) : Memref sig .tc .vmem S1024x1024 .f32 := win1_2.stage (cfg1.slots t 2)
abbrev outBufWhole (t : Fin cfg1.N) : (outBuf t).IsWhole := hstage1_2 ((cfg1.slots t 2).cast nbuf1_2)

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (aBuf t) fullShare ((dat1 V c).before 0 t d))
    ∗ (∃ d, owns (c : Thread nD τ) (bBuf t) fullShare ((dat1 V c).before 1 t d))
    ∗ (∃ d, owns (c : Thread nD τ) (outBuf t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 8 says which step of a
    contraction the point is. At a first step the accumulator may hold anything (at the region's very first point
    it comes out of the launch's scoped rest, later from the invariant) and ends at zero plus the product; at a
    later step it holds what the point before left and ends at that plus the product — the two arms of the
    accumulation. Off the last step the output buffer goes back as it came; at the last step it ends at the
    accumulator. The other scoped buffers, the generator register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (aBuf t) fullShare ((dat1 V c).after 0 t) from by
    unfold Dat.leavesExact; rw [aLive t], after1_0]
  rw [show (dat1 V c).leavesExact 1 t = owns (c : Thread nD τ) (bBuf t) fullShare ((dat1 V c).after 1 t) from by
    unfold Dat.leavesExact; rw [bLive t], after1_1]
  have hN : t.val < 128 := lt_of_lt_of_eq t.isLt (show cfg1.N = 128 from N_1)
  by_cases h0 : t.val % 8 = 0
  · have h1 : ¬t.val % 8 = 7 := by omega
    have hfirst : atFirstStep (grid1.coords t) := (atFirstStep_iff t).mpr h0
    have hnotlast : ¬atLastStep (grid1.coords t) := fun h => h1 ((atLastStep_iff t).mp h)
    rw [Dat.leavesExact_idle (dat1 V c) 2 t (outIdle t hnotlast) (outKept t hnotlast)]
    rw [accAt_first V c t h0]
    by_cases hz : t.val = 0
    · rw [PhiS_castSucc V c t, PhiS_zero V c _ _ hz, PhiA1_eq]
      iintro ⟨⟨⟨HR, HS⟩, Hg⟩, Ho, ⟨%d0, H0⟩, ⟨%d1, H1⟩, ⟨%d2, H2⟩⟩
      iapply (run_first c (grid1.coords t) _ _ _ _ _ _ _ _ hfirst hnotlast (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HS⟩, Hg⟩, Ho, ⟨%d0, H0⟩, ⟨%d1, H1⟩, ⟨%d2, H2⟩⟩
      iapply (run_first c (grid1.coords t) _ _ _ _ _ _ _ _ hfirst hnotlast (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2
  · have hz : t.val ≠ 0 := fun h => h0 (by rw [h])
    have hnotfirst : ¬atFirstStep (grid1.coords t) := fun h => h0 ((atFirstStep_iff t).mp h)
    rw [accAt_later V c t h0]
    rw [PhiS_castSucc V c t, PhiS_pos V c _ _ hz]
    by_cases h1 : t.val % 8 = 7
    · have hlast : atLastStep (grid1.coords t) := (atLastStep_iff t).mpr h1
      rw [show (dat1 V c).leavesExact 2 t = owns (c : Thread nD τ) (outBuf t) fullShare ((dat1 V c).after 2 t) from by
        unfold Dat.leavesExact; rw [outLive t hlast], after1_2, accAt_later V c t h0]
      iintro ⟨⟨⟨HR, HS⟩, Hg⟩, Ho, ⟨%d0, H0⟩, ⟨%d1, H1⟩, ⟨%d2, H2⟩⟩
      iapply (run_last c (grid1.coords t) _ _ _ _ _ _ _ _ hnotfirst hlast (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexact H2
    · have hnotlast : ¬atLastStep (grid1.coords t) := fun h => h1 ((atLastStep_iff t).mp h)
      rw [Dat.leavesExact_idle (dat1 V c) 2 t (outIdle t hnotlast) (outKept t hnotlast)]
      iintro ⟨⟨⟨HR, HS⟩, Hg⟩, Ho, ⟨%d0, H0⟩, ⟨%d1, H1⟩, ⟨%d2, H2⟩⟩
      iapply (run_middle c (grid1.coords t) _ _ _ _ _ _ _ _ hnotfirst hnotlast (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HR HS Hg]
      · isplitr [Hg]
        · isplitl [HR]; · iexact HR
          iexact HS
        · iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped rest back: the accumulator's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hN, PhiA1_eq]
  iintro ⟨⟨HR, HS⟩, Hg⟩
  isplitr [Hg]
  · isplitl [HR]; · iexact HR
    iexists _; iexact HS
  · iexact Hg

end Cert.KernelIdeal.Fr

end
-- ==== Proof.KI.Launch.lean ====
/- The run of the whole program: the two kernel regions and the two stretches of host operations after them, as
   segments of one launch. The buffers' contents are folded through the program: region 0 leaves the difference
   and quotient arrays, region 1 the Gram matrix, the host stretches their results; every unscoped buffer is read
   back at the end, so both the frame (the arguments unchanged) and the result's value follow. -/
import proofs.«164337_j20615843021101_1_alg».proof.Proof.KI.Shared
import proofs.«164337_j20615843021101_1_alg».proof.Proof.KI.Acc
import proofs.«164337_j20615843021101_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: the two result arrays at what the write-backs leave, every other buffer as launched. -/
def W1 (c : Dev nD) : Valuation τ sig (Elt F) :=
  Function.update (Function.update (W0 m ρ c) (Proc.devRef .tc main_v0_0) ((dat0 (V0 m ρ) c).arrAt 3 cfg0.N))
    (Proc.devRef .tc main_v0_1) ((dat0 (V0 m ρ) c).arrAt 4 cfg0.N)
abbrev V1 : (c : Dev nD) → (b : Ref sig .tc) → Buf (Elt F) ((c : Thread nD τ).loc b) := fun c b => W1 m ρ c b

theorem W1_v0_1 (c : Dev nD) : W1 m ρ c (Proc.devRef .tc main_v0_1) = (dat0 (V0 m ρ) c).arrAt 4 cfg0.N := by
  unfold W1; exact Function.update_self ..
theorem W1_v0_0 (c : Dev nD) : W1 m ρ c (Proc.devRef .tc main_v0_0) = (dat0 (V0 m ρ) c).arrAt 3 cfg0.N := by
  unfold W1
  rw [Function.update_of_ne (StableHlo.devRef_ne_of_ne (by decide) : (Proc.devRef .tc main_v0_0 : DevRef τ sig) ≠ Proc.devRef .tc main_v0_1)]
  exact Function.update_self ..
theorem W1_of_ne (c : Dev nD) (b : Ref sig .tc) (h0 : b ≠ main_v0_0) (h1 : b ≠ main_v0_1) :
    W1 m ρ c (Proc.devRef .tc b) = W0 m ρ c (Proc.devRef .tc b) := by
  unfold W1
  rw [Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]

/-- After region 1: the Gram array at what the write-backs leave. -/
def W2 (c : Dev nD) : Valuation τ sig (Elt F) :=
  Function.update (W1 m ρ c) (Proc.devRef .tc main_v1) ((dat1 (V1 m ρ) c).arrAt 2 cfg1.N)
abbrev V2 : (c : Dev nD) → (b : Ref sig .tc) → Buf (Elt F) ((c : Thread nD τ).loc b) := fun c b => W2 m ρ c b

theorem W2_v1 (c : Dev nD) : W2 m ρ c (Proc.devRef .tc main_v1) = (dat1 (V1 m ρ) c).arrAt 2 cfg1.N := by
  unfold W2; exact Function.update_self ..
theorem W2_of_ne (c : Dev nD) (b : Ref sig .tc) (h : b ≠ main_v1) :
    W2 m ρ c (Proc.devRef .tc b) = W1 m ρ c (Proc.devRef .tc b) := by
  unfold W2
  rw [Function.update_of_ne (StableHlo.devRef_ne_of_ne h : (Proc.devRef .tc b : DevRef τ sig) ≠ Proc.devRef .tc main_v1)]

/-- After the trace's operations, and after the closing ones. -/
abbrev W3 : Dev nD → Valuation τ sig (Elt F) := fun c => StableHlo.after hostOps2 (W2 m ρ c)
abbrev W4 : Dev nD → Valuation τ sig (Elt F) := fun c => StableHlo.after hostOps2_1 (W3 m ρ c)

/-! ## What each region's arrays hold at its exit, and what it leaves alone -/

theorem exit0_0 (c : Dev nD) : (dat0 (V0 m ρ) c).arrAt 0 cfg0.N = V1 m ρ c main_arg0 :=
  (((dat0 (V0 m ρ) c).arrAt_in 0 rfl _).trans (A_eq0 (V0 m ρ) c 0)).trans (W1_of_ne m ρ c main_arg0 (by decide) (by decide)).symm
theorem exit0_1 (c : Dev nD) : (dat0 (V0 m ρ) c).arrAt 1 cfg0.N = V1 m ρ c main_arg0 :=
  (((dat0 (V0 m ρ) c).arrAt_in 1 rfl _).trans (A_eq0 (V0 m ρ) c 1)).trans (W1_of_ne m ρ c main_arg0 (by decide) (by decide)).symm
theorem exit0_2 (c : Dev nD) : (dat0 (V0 m ρ) c).arrAt 2 cfg0.N = V1 m ρ c main_arg1 :=
  (((dat0 (V0 m ρ) c).arrAt_in 2 rfl _).trans (A_eq0 (V0 m ρ) c 2)).trans (W1_of_ne m ρ c main_arg1 (by decide) (by decide)).symm
theorem exit0_3 (c : Dev nD) : (dat0 (V0 m ρ) c).arrAt 3 cfg0.N = V1 m ρ c main_v0_0 := (W1_v0_0 m ρ c).symm
theorem exit0_4 (c : Dev nD) : (dat0 (V0 m ρ) c).arrAt 4 cfg0.N = V1 m ρ c main_v0_1 := (W1_v0_1 m ρ c).symm
theorem rest0 (c : Dev nD) : ∀ b, b ∉ Finset.univ.image (Pipeline.arrRef spec0) → V1 m ρ c b = V0 m ρ c b := fun b hb =>
  W1_of_ne m ρ c b (fun e => hb (e ▸ by decide)) (fun e => hb (e ▸ by decide))

theorem exit1 (c : Dev nD) (w : Fin cfg1.W) : (dat1 (V1 m ρ) c).arrAt w cfg1.N = V2 m ρ c (Pipeline.arrRef spec1 w) := by
  match w with
  | ⟨0, _⟩ => exact (((dat1 (V1 m ρ) c).arrAt_in 0 rfl _).trans (A_eq1 (V1 m ρ) c 0)).trans (W2_of_ne m ρ c main_v0_0 (by decide)).symm
  | ⟨1, _⟩ => exact (((dat1 (V1 m ρ) c).arrAt_in 1 rfl _).trans (A_eq1 (V1 m ρ) c 1)).trans (W2_of_ne m ρ c main_v0_1 (by decide)).symm
  | ⟨2, _⟩ => exact (W2_v1 m ρ c).symm
theorem rest1 (c : Dev nD) : ∀ b, b ∉ Finset.univ.image (Pipeline.arrRef spec1) → V2 m ρ c b = V1 m ρ c b := fun b hb =>
  W2_of_ne m ρ c b (fun e => hb (e ▸ by decide))

/-! ## The proof data family and the thread state -/

abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0: entered from every unscoped buffer as launched, left with the two result arrays written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄)
        ⊢ iprop((pdats m ρ 0 c).arrays ((pdats m ρ 0 c).arrAt · 0) ∗ Pipeline.unscopedRest spec0 c (V0 m ρ c)) :=
      arrays_of_bufs0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V0 m ρ c))
        ⊢ (unscopedBufs c (V1 m ρ c) : sProp 𝕄) :=
      bufs_of_arrays0 (V0 m ρ) c (V1 m ρ c) ((dat0 (V0 m ρ) c).arrAt · cfg0.N)
        (exit0_0 m ρ c) (exit0_1 m ρ c) (exit0_2 m ρ c) (exit0_3 m ρ c) (exit0_4 m ρ c) (rest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1: entered from what region 0 left, left with the Gram array written; the accumulator scratch goes
    into the invariant at the first point and comes back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop(Pipeline.scopedRest spec1 c ∗ ∃ r, prngReg c r) ⊢ ((pdats m ρ 1 c).Φ 0 : sProp 𝕄) := by
      have h := hin1 (V1 m ρ) c; unfold Pipeline.ΦA at h; exact h
    iintro ⟨Hp, -, Hr⟩
    iapply hA
    isplitl [Hr]; · iexact Hr
    iexact Hp
  hout c := by
    rw [Pipeline.ownSems0_none]
    have hB : ((pdats m ρ 1 c).Φ (Fin.last _) : sProp 𝕄) ⊢ iprop(Pipeline.scopedRest spec1 c ∗ ∃ r, prngReg c r) := by
      have h := hout1 (V1 m ρ) c; unfold Pipeline.ΦA at h; exact h
    iintro H
    ihave H' := hB $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (exit1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the folded contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_keeps (c : Dev nD) (b : Ref sig .tc) (h4 : b ∉ hostOps2_1_W) (h3 : b ∉ hostOps2_W) (h2 : b ≠ main_v1)
    (h0 : b ≠ main_v0_0) (h1 : b ≠ main_v0_1) : W4 m ρ c (Proc.devRef .tc b) = m ((c : Thread nD τ).loc b) :=
  calc W4 m ρ c (Proc.devRef .tc b)
    _ = W3 m ρ c (Proc.devRef .tc b) := StableHlo.after_of_writes_sub hostOps2_1 _ hostOps2_1_writes h4
    _ = W2 m ρ c (Proc.devRef .tc b) := StableHlo.after_of_writes_sub hostOps2 _ hostOps2_writes h3
    _ = W1 m ρ c (Proc.devRef .tc b) := W2_of_ne m ρ c b h2
    _ = W0 m ρ c (Proc.devRef .tc b) := W1_of_ne m ρ c b h0 h1
    _ = m ((c : Thread nD τ).loc b) := rfl

/-- THE FRAME: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_keeps m ρ c main_arg0 (by decide) (by decide) (by decide) (by decide) (by decide)),
     (h c _ (mem_uc main_arg1 (by decide))).trans (W4_keeps m ρ c main_arg1 (by decide) (by decide) (by decide) (by decide) (by decide))⟩)
    (run_all m ρ)

end Cert.KernelIdeal.Fr

end
-- ==== Proof.Ref.Run.lean ====
/- The reference's run. The reference computes, from an 8192×8192 array x = [A | B] (A its left 4096 columns,
   B its right 4096 columns) and an 8192×4096 array y, the scalar

       trace (Dᵀ · (D / B)) + log (Σ B),        D = A − y,

   the quotient taken entry by entry, the contraction over the 8192 rows, the trace as the sum over ALL entries
   (i, j) of the 4096×4096 product with every entry off the diagonal i + 0 = j replaced by zero, and Σ B the
   sum of all entries of B. Here @main is written as the list of its twenty-one operations, the call of @trace
   (and inside it of @_where) unfolded at its site over the call's own buffers; its run from any launch memory
   then ends with the result buffer at that composed term of the two arguments, and the arguments unchanged.
   Generic in the float values. -/
import proofs.«164337_j20615843021101_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-one operations, in order. Nine of @main itself: the left half A and the right half B of the
    first argument, the difference D = A − y, the quotient D / B, the zero, the sum of B from it and its logarithm,
    the transpose Dᵀ, the contraction Dᵀ · (D / B). Eleven of @trace, over the buffers of its one call: the row
    index, the column index, the offset 0 and its broadcast, the row index plus the offset, its comparison with the
    column index (the diagonal's mask); the zero and its broadcast; @_where's select, keeping the product on the
    diagonal and the zero off it; the zero again, and the sum of every entry from it. Last, @main's addition of the
    trace and the logarithm. -/
abbrev ops : List (HloOp τ sig (Elt F)) :=
  [ unary main_arg0 main_v0 ((extractStridedSlice S8192x4096 ![0, 0] · slices_S8192x8192_S8192x4096_0_0) : (⟨S8192x8192, .f32⟩ : BufTy).Contents (Elt F) → (⟨S8192x4096, .f32⟩ : BufTy).Contents (Elt F)),
    unary main_arg0 main_v1 ((extractStridedSlice S8192x4096 ![0, 4096] · slices_S8192x8192_S8192x4096_0_4096) : (⟨S8192x8192, .f32⟩ : BufTy).Contents (Elt F) → (⟨S8192x4096, .f32⟩ : BufTy).Contents (Elt F)),
    binary main_v0 main_arg1 main_v2 (subf : (⟨S8192x4096, .f32⟩ : BufTy).Contents (Elt F) → (⟨S8192x4096, .f32⟩ : BufTy).Contents (Elt F) → (⟨S8192x4096, .f32⟩ : BufTy).Contents (Elt F)),
    binary main_v2 main_v1 main_v3 (Host.divf : (⟨S8192x4096, .f32⟩ : BufTy).Contents (Elt F) → (⟨S8192x4096, .f32⟩ : BufTy).Contents (Elt F) → (⟨S8192x4096, .f32⟩ : BufTy).Contents (Elt F)),
    nullary main_cst (constant S_ .f32 0x00000000#32),
    binary main_v1 main_cst main_v4 ((fun x v => Host.reduceAdd x v reducesTo_S8192x4096_S_d0_1 h_S_) : (⟨S8192x4096, .f32⟩ : BufTy).Contents (Elt F) → (⟨S_, .f32⟩ : BufTy).Contents (Elt F) → (⟨S_, .f32⟩ : BufTy).Contents (Elt F)),
    unary main_v4 main_v5 (Host.log : (⟨S_, .f32⟩ : BufTy).Contents (Elt F) → (⟨S_, .f32⟩ : BufTy).Contents (Elt F)),
    unary main_v2 main_v6 ((transpose S4096x8192 [1, 0] · transposes_S8192x4096_S4096x8192_1_0) : (⟨S8192x4096, .f32⟩ : BufTy).Contents (Elt F) → (⟨S4096x8192, .f32⟩ : BufTy).Contents (Elt F)),
    binary main_v6 main_v3 main_v7 ((fun l r => Host.dotGeneral dot_S4096x8192_S8192x4096_S4096x4096_1_0_0_1_n_n none l r) : (⟨S4096x8192, .f32⟩ : BufTy).Contents (Elt F) → (⟨S8192x4096, .f32⟩ : BufTy).Contents (Elt F) → (⟨S4096x4096, .f32⟩ : BufTy).Contents (Elt F)),
    TRef.nullary main_call0.v0 (iotaInDim S4096x4096 32 0),
    TRef.nullary main_call0.v1 (iotaInDim S4096x4096 32 1),
    TRef.nullary main_call0.c (constantI S_ 32 0#32),
    TRef.unary main_call0.c main_call0.v2 (broadcastInDim S4096x4096 ![] bcast_S_S4096x4096),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4096x4096 ![] bcast_S_S4096x4096),
    TRef.ternary main_call0.v4 (.of main_v7) main_call0.v5 main_call0.call0.v0 select,
    TRef.nullary main_call0.cst_0 (constant S_ .f32 0x00000000#32),
    TRef.binary main_call0.call0.v0 main_call0.cst_0 main_call0.v7 (fun x v => Host.reduceAdd x v reducesTo_S4096x4096_S_d0_1 h_S_),
    binary main_v8 main_v5 main_v9 (addf : (⟨S_, .f32⟩ : BufTy).Contents (Elt F) → (⟨S_, .f32⟩ : BufTy).Contents (Elt F) → (⟨S_, .f32⟩ : BufTy).Contents (Elt F)) ]

/-- @main is that straight line: @trace's and @_where's bodies put in place of their calls, the call's record read
    at its fields, and the sequencing reassociated, both sides are one chain of the same steps. -/
theorem main_eq (c : Dev nD) : main (F := F) c = seq ops := by
  simp only [main, fn_trace.body, fn_where.body, seq, bind_assoc, pure_bind]

/-- The program has tensor values only: no buffer of it is scoped, -/
theorem scopedRefs_eq : (Finset.univ.filter fun b : Ref sig .tc => b.isScoped) = ∅ := by decide
/-- and it has no semaphore at all. -/
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig :=
  ⟨unary_bufs_sub .., unary_bufs_sub .., binary_bufs_sub .., binary_bufs_sub .., nullary_bufs_sub .., binary_bufs_sub ..,
    unary_bufs_sub .., unary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub ..⟩

/-! ## The result as one term -/

/-- The 4096×4096 product Dᵀ · (D / B) of the arguments x = [A | B] and y, with D = A − y: entry (i, j) is the
    contraction over the 8192 rows k of D k i and D k j / B k j. -/
def gramTerm (x : (⟨S8192x8192, .f32⟩ : BufTy).Contents (Elt F)) (y : (⟨S8192x4096, .f32⟩ : BufTy).Contents (Elt F)) :
    (⟨S4096x4096, .f32⟩ : BufTy).Contents (Elt F) :=
  Host.dotGeneral dot_S4096x8192_S8192x4096_S4096x4096_1_0_0_1_n_n none
    (transpose S4096x8192 [1, 0]
      (subf (extractStridedSlice S8192x4096 ![0, 0] x slices_S8192x8192_S8192x4096_0_0) y)
      transposes_S8192x4096_S4096x8192_1_0)
    (Host.divf
      (subf (extractStridedSlice S8192x4096 ![0, 0] x slices_S8192x8192_S8192x4096_0_0) y)
      (extractStridedSlice S8192x4096 ![0, 4096] x slices_S8192x8192_S8192x4096_0_4096))

/-- The trace of a 4096×4096 array as the reference takes it: the sum, from zero, over ALL entries (i, j) of the
    array that holds G i j where the row index plus the offset 0 equals the column index, and zero elsewhere. -/
def traceTerm (G : (⟨S4096x4096, .f32⟩ : BufTy).Contents (Elt F)) : (⟨S_, .f32⟩ : BufTy).Contents (Elt F) :=
  Host.reduceAdd
    (select
      (cmpi .eq
        (addi (iotaInDim S4096x4096 32 0) (broadcastInDim S4096x4096 ![] bcast_S_S4096x4096 (constantI S_ 32 0#32)))
        (iotaInDim S4096x4096 32 1))
      G
      (broadcastInDim S4096x4096 ![] bcast_S_S4096x4096 (constant (F := F) S_ .f32 0x00000000#32)))
    (constant (F := F) S_ .f32 0x00000000#32) reducesTo_S4096x4096_S_d0_1 h_S_

/-- The logarithm of the sum, from zero, of every entry of the right half B of x. -/
def logSumTerm (x : (⟨S8192x8192, .f32⟩ : BufTy).Contents (Elt F)) : (⟨S_, .f32⟩ : BufTy).Contents (Elt F) :=
  Host.log
    (Host.reduceAdd (extractStridedSlice S8192x4096 ![0, 4096] x slices_S8192x8192_S8192x4096_0_4096)
      (constant (F := F) S_ .f32 0x00000000#32) reducesTo_S8192x4096_S_d0_1 h_S_)

/-- The reference's result as ONE term of its two argument arrays: trace (Dᵀ · (D / B)) + log (Σ B). -/
def result (x : (⟨S8192x8192, .f32⟩ : BufTy).Contents (Elt F)) (y : (⟨S8192x4096, .f32⟩ : BufTy).Contents (Elt F)) :
    (⟨S_, .f32⟩ : BufTy).Contents (Elt F) :=
  addf (traceTerm (gramTerm x y)) (logSumTerm x)

/-! ## The run -/

/-- On every device, for any float values, from any memory with zero counters: every weakly fair execution of
    @main terminates with the result buffer at the term above of the two arguments' launch contents, and the
    arguments unchanged. The fold of the twenty-one operations, read at the result buffer, is each operation's
    function at the contents its operands were last given; the typed buffers of the call carry each value at its
    own type, so the composed term is that term by computation. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v9)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.KI.Result.lean ====
/- The result the program leaves at the extended reals: the trace of the Gram array region 1 wrote, plus the
   logarithm of the sum of the first argument's right column half — the very operations the reference applies to
   its own Gram matrix, so the two results differ only in where the Gram matrix comes from. -/
import proofs.«164337_j20615843021101_1_alg».proof.Proof.KI.Launch
import proofs.«164337_j20615843021101_1_alg».proof.Proof.Ref.Run
import Idealize.ShloMosaic.Lib.StableHlo.Run
import Idealize.ShloMosaic.PureOps.Ideal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The first argument reaches the closing operations as launched. -/
theorem W2_arg0 (c : Dev nD) : W2 (F := Ideal) m ρ c (Proc.devRef .tc main_arg0) = m ((c : Thread nD τ).loc main_arg0) :=
  (W2_of_ne m ρ c main_arg0 (by decide)).trans ((W1_of_ne m ρ c main_arg0 (by decide) (by decide)).trans rfl)

/-- The closing operations as one function of a Gram matrix G and the first argument x: trace G + log (sum of the
    right column half of x), spelt with the reference's own terms. -/
def closing {F : FTy → Type} [FloatOps F] (G : (⟨Cert.ReferenceIdeal.S4096x4096, .f32⟩ : BufTy).Contents (Elt F))
    (x : (⟨Cert.ReferenceIdeal.S8192x8192, .f32⟩ : BufTy).Contents (Elt F)) : (⟨Cert.ReferenceIdeal.S_, .f32⟩ : BufTy).Contents (Elt F) :=
  addf (Cert.ReferenceIdeal.RefRun.traceTerm G) (Cert.ReferenceIdeal.RefRun.logSumTerm x)

/-- The result buffer after the two host stretches: the trace of what region 1 left, plus the log of the sum. -/
theorem result_fold (c : Dev nD) :
    W4 (F := Ideal) m ρ c (Proc.devRef .tc main_v6)
      = closing (F := Ideal) (W2 m ρ c (Proc.devRef .tc main_v1)) (m ((c : Thread nD τ).loc main_arg0)) := by
  unfold closing
  rw [← W2_arg0 m ρ c]
  show StableHlo.after hostOps2_1 (StableHlo.after hostOps2 (W2 m ρ c)) (Proc.devRef .tc main_v6) = _
  after_results
  rfl

end Cert.KernelIdeal.Fr

end
-- ==== Proof.Spec.lean ====
/- What the program computes, entry by entry over the extended reals. The first argument is an 8192 x 8192 array
   whose left column half holds means and whose right column half holds variances; the second an 8192 x 4096 array
   of targets. diff = mean - targets and mid = diff / var are 8192 x 4096; the Gram matrix diffᵀ · mid is
   4096 x 4096, entry (i, j) the sum over the 8192 rows n of diff (n, i) * mid (n, j). -/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- Column d of the left half of a row of 8192 entries, and of its right half. -/
abbrev colL (d : Fin 4096) : Fin 8192 := ⟨d.val, by have := d.isLt; omega⟩
abbrev colR (d : Fin 4096) : Fin 8192 := ⟨4096 + d.val, by have := d.isLt; omega⟩

variable (x : FVec Ideal ⟨2, ![8192, 8192]⟩ .f32) (y : FVec Ideal ⟨2, ![8192, 4096]⟩ .f32)

/-- mean - targets at row n, column d. -/
def diffE (n : Fin 8192) (d : Fin 4096) : EReal := x (ix2 n (colL d)) - y (ix2 n d)

/-- (mean - targets) / var at row n, column d (the division is the one both programs use). -/
def midE (n : Fin 8192) (d : Fin 4096) : EReal := Ideal.div (diffE x y n d) (x (ix2 n (colR d)))

/-- Entry (i, j) of the Gram matrix diffᵀ · mid. -/
def gramE (i j : Fin 4096) : EReal := ∑ n : Fin 8192, diffE x y n i * midE x y n j

/-- The Gram matrix as an array. -/
def gramArr : FVec Ideal ⟨2, ![4096, 4096]⟩ .f32 := fun ij => gramE x y (ij 0) (ij 1)

theorem gramArr_apply (i j : Fin 4096) : gramArr x y (ix2 i j) = gramE x y i j := rfl

end Cert.Spec

end
-- ==== Proof.KI.PrepValue.lean ====
/- Region 0 (the elementwise stage) over the extended reals: what its two output arrays hold after all 64 grid
   points, entry by entry, as functions of the two argument arrays as the region finds them. Point (i, j) of the
   16 x 4 grid stores rows 512 i .. 512 i + 511, columns 1024 j .. 1024 j + 1023 of both outputs, from the same rows of
   the means (columns 1024 j ..), of the variances (columns 4096 + 1024 j ..) and of the targets (columns 1024 j ..);
   the 64 blocks tile the 8192 x 4096 outputs, so every entry is stored exactly once. -/
import proofs.«164337_j20615843021101_1_alg».proof.Proof.KI.Prep
import proofs.«164337_j20615843021101_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal.Gen

variable (V : (c : Dev nD) → (b : Ref sig .tc) → Buf (Elt Ideal) ((c : Thread nD τ).loc b))

/-! ## The two output arrays as functions of the arguments -/

/-- The difference array of a mean-and-variance array a0 and a target array a1: entry (n, d) is
    mean (n, d) - targets (n, d). -/
def diffOf (a0 : FVec Ideal S8192x8192 .f32) (a1 : FVec Ideal S8192x4096 .f32) : FVec Ideal S8192x4096 .bf16 :=
  fun i => Cert.Spec.diffE a0 a1 (i 0) (i 1)

/-- The quotient array: entry (n, d) is (mean (n, d) - targets (n, d)) / var (n, d). -/
def midOf (a0 : FVec Ideal S8192x8192 .f32) (a1 : FVec Ideal S8192x4096 .f32) : FVec Ideal S8192x4096 .bf16 :=
  fun i => Cert.Spec.midE a0 a1 (i 0) (i 1)

/-! ## The body's arithmetic at one entry of a block -/

/-- The first stored block at an entry: the difference of the mean and target entries (the rounding to the
    narrower format is the identity over the extended reals). -/
theorem storedDiff_apply (x0 x2 : Vec Ideal S512x1024 .f32) (j : S512x1024.Idx) :
    (k0_pay2 x0 x2 : S512x1024.Idx → EReal) j = x0 j - x2 j := rfl

/-- The second stored block at an entry: that difference divided by the variance entry. -/
theorem storedMid_apply (x0 x1 x2 : Vec Ideal S512x1024 .f32) (j : S512x1024.Idx) :
    (k0_pay3 x0 x1 x2 : S512x1024.Idx → EReal) j = Ideal.div (x0 j - x2 j) (x1 j) := rfl

/-! ## Where the five windows' blocks sit at a grid point -/

theorem zeroOffsets : (![0, 0] : Fin 2 → Nat) = fun _ => 0 := funext fun a => by fin_cases a <;> rfl

/-- The printed index maps, decided over the 64 points: the mean and target blocks sit where the output blocks sit,
    the variance block four block columns to the right; block rows run below 16 and block columns below 4. -/
theorem blockIndex_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2) + 4
    ∧ win0_2.index t (0 : Fin 2) = win0_3.index t (0 : Fin 2) ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 x 4 output blocks is some point's. -/
theorem blockIndex_onto : ∀ (q0 : Fin 16) (q1 : Fin 4), ∃ t : Fin cfg0.N, win0_3.index t = ![q0.val, q1.val] ∧ win0_4.index t = ![q0.val, q1.val] :=
  (by decide +kernel : ∀ (q0 : Fin 16) (q1 : Fin 4), ∃ t : Fin grid0.N, win0_3.index t = ![q0.val, q1.val] ∧ win0_4.index t = ![q0.val, q1.val])

/-! ## One entry of a stored block is one entry of the whole-array function -/

/-- The difference at an entry i of the output array, from the mean entry in the same row and column of the
    first argument and the target entry at i. -/
theorem diffOf_entry (a0 : FVec Ideal S8192x8192 .f32) (a1 : FVec Ideal S8192x4096 .f32)
    (i : S8192x4096.Idx) (i0 : S8192x8192.Idx) (i2 : S8192x4096.Idx)
    (h00 : (i0 0).val = (i 0).val) (h01 : (i0 1).val = (i 1).val)
    (h20 : (i2 0).val = (i 0).val) (h21 : (i2 1).val = (i 1).val) :
    a0 i0 - a1 i2 = diffOf a0 a1 i := by
  have e0 : i0 = ix2 (i 0) (Cert.Spec.colL (i 1)) := funext fun a => Fin.ext (by
    match a with
    | ⟨0, _⟩ => exact h00
    | ⟨1, _⟩ => exact h01)
  have e2 : i2 = ix2 (i 0) (i 1) := funext fun a => Fin.ext (by
    match a with
    | ⟨0, _⟩ => exact h20
    | ⟨1, _⟩ => exact h21)
  rw [e0, e2]; rfl

/-- The quotient at an entry i: additionally the variance entry in the same row, 4096 columns to the right. -/
theorem midOf_entry (a0 : FVec Ideal S8192x8192 .f32) (a1 : FVec Ideal S8192x4096 .f32)
    (i : S8192x4096.Idx) (i0 i1 : S8192x8192.Idx) (i2 : S8192x4096.Idx)
    (h00 : (i0 0).val = (i 0).val) (h01 : (i0 1).val = (i 1).val)
    (h10 : (i1 0).val = (i 0).val) (h11 : (i1 1).val = 4096 + (i 1).val)
    (h20 : (i2 0).val = (i 0).val) (h21 : (i2 1).val = (i 1).val) :
    Ideal.div (a0 i0 - a1 i2) (a0 i1) = midOf a0 a1 i := by
  have e0 : i0 = ix2 (i 0) (Cert.Spec.colL (i 1)) := funext fun a => Fin.ext (by
    match a with
    | ⟨0, _⟩ => exact h00
    | ⟨1, _⟩ => exact h01)
  have e1 : i1 = ix2 (i 0) (Cert.Spec.colR (i 1)) := funext fun a => Fin.ext (by
    match a with
    | ⟨0, _⟩ => exact h10
    | ⟨1, _⟩ => exact h11)
  have e2 : i2 = ix2 (i 0) (i 1) := funext fun a => Fin.ext (by
    match a with
    | ⟨0, _⟩ => exact h20
    | ⟨1, _⟩ => exact h21)
  rw [e0, e1, e2]; rfl

/-! ## What each point writes back -/

/-- Point t writes to the difference array the block, at the point's block position, of the difference array of
    the two arguments as the region finds them. -/
theorem flushedDiff_eq (c : Dev nD) (t : Fin cfg0.N) :
    (dat0 (F := Ideal) V c).flushed 3 t
      = ((cfg0.win 3).blk t).view.read (Elt Ideal) (diffOf (V c main_arg0) (V c main_arg1)) := by
  show (cfg0.win 3).cut (cfg0.grid.coords t) ((dat0 (F := Ideal) V c).after 3 t) = _
  rw [after0_3]
  unfold out0_3
  rw [View.canon_unit_zero zeroOffsets]
  simp only [View.ld_unit_zero (S := S512x1024) zeroOffsets]
  obtain ⟨e00, e01, e10, e11, e20, e21, e40, e41, b0, b1⟩ := blockIndex_facts t
  funext j
  refine diffOf_entry (V c main_arg0) (V c main_arg1) (((cfg0.win 3).blk t).view.emb j) (((cfg0.win 0).blk t).view.emb j) (((cfg0.win 2).blk t).view.emb j) ?_ ?_ ?_ ?_
  · show win0_0.index t (0 : Fin 2) * 512 + 1 * (j 0).val = win0_3.index t (0 : Fin 2) * 512 + 1 * (j 0).val; omega
  · show win0_0.index t (1 : Fin 2) * 1024 + 1 * (j 1).val = win0_3.index t (1 : Fin 2) * 1024 + 1 * (j 1).val; omega
  · show win0_2.index t (0 : Fin 2) * 512 + 1 * (j 0).val = win0_3.index t (0 : Fin 2) * 512 + 1 * (j 0).val; omega
  · show win0_2.index t (1 : Fin 2) * 1024 + 1 * (j 1).val = win0_3.index t (1 : Fin 2) * 1024 + 1 * (j 1).val; omega

/-- Point t writes to the quotient array the block of the quotient array at the point's block position. -/
theorem flushedMid_eq (c : Dev nD) (t : Fin cfg0.N) :
    (dat0 (F := Ideal) V c).flushed 4 t
      = ((cfg0.win 4).blk t).view.read (Elt Ideal) (midOf (V c main_arg0) (V c main_arg1)) := by
  show (cfg0.win 4).cut (cfg0.grid.coords t) ((dat0 (F := Ideal) V c).after 4 t) = _
  rw [after0_4]
  unfold out0_4
  rw [View.canon_unit_zero zeroOffsets]
  simp only [View.ld_unit_zero (S := S512x1024) zeroOffsets]
  obtain ⟨e00, e01, e10, e11, e20, e21, e40, e41, b0, b1⟩ := blockIndex_facts t
  funext j
  refine midOf_entry (V c main_arg0) (V c main_arg1) (((cfg0.win 4).blk t).view.emb j) (((cfg0.win 0).blk t).view.emb j) (((cfg0.win 1).blk t).view.emb j) (((cfg0.win 2).blk t).view.emb j) ?_ ?_ ?_ ?_ ?_ ?_
  · show win0_0.index t (0 : Fin 2) * 512 + 1 * (j 0).val = win0_4.index t (0 : Fin 2) * 512 + 1 * (j 0).val; omega
  · show win0_0.index t (1 : Fin 2) * 1024 + 1 * (j 1).val = win0_4.index t (1 : Fin 2) * 1024 + 1 * (j 1).val; omega
  · show win0_1.index t (0 : Fin 2) * 512 + 1 * (j 0).val = win0_4.index t (0 : Fin 2) * 512 + 1 * (j 0).val; omega
  · show win0_1.index t (1 : Fin 2) * 1024 + 1 * (j 1).val = 4096 + (win0_4.index t (1 : Fin 2) * 1024 + 1 * (j 1).val); omega
  · show win0_2.index t (0 : Fin 2) * 512 + 1 * (j 0).val = win0_4.index t (0 : Fin 2) * 512 + 1 * (j 0).val; omega
  · show win0_2.index t (1 : Fin 2) * 1024 + 1 * (j 1).val = win0_4.index t (1 : Fin 2) * 1024 + 1 * (j 1).val; omega

/-! ## The 64 blocks tile each output array -/

/-- An entry of the difference array lies in point t's block iff each coordinate lies in the block's range. -/
theorem mem_diffBlock (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

/-- The same for the quotient array. -/
theorem mem_midBlock (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_1).slice (win0_4.rect t)).set ↔ _
  rw [View.set_slice_whole, Rect.mem_set_unit]
  exact Iff.rfl

/-- Entry (r, q) of the difference array is stored by the point whose block is (r / 512, q / 1024). -/
theorem diff_covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht3, ht4⟩ := blockIndex_onto ⟨(i 0).val / 512, by omega⟩ ⟨(i 1).val / 1024, by omega⟩
  have q0 : win0_3.index t (0 : Fin 2) = (i 0).val / 512 := congrFun ht3 0
  have q1 : win0_3.index t (1 : Fin 2) = (i 1).val / 1024 := congrFun ht3 1
  refine ⟨t, flush0_3 t, ?_⟩
  rw [mem_diffBlock]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- And entry (r, q) of the quotient array by the same point. -/
theorem mid_covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht3, ht4⟩ := blockIndex_onto ⟨(i 0).val / 512, by omega⟩ ⟨(i 1).val / 1024, by omega⟩
  have q0 : win0_4.index t (0 : Fin 2) = (i 0).val / 512 := congrFun ht4 0
  have q1 : win0_4.index t (1 : Fin 2) = (i 1).val / 1024 := congrFun ht4 1
  refine ⟨t, flush0_4 t, ?_⟩
  rw [mem_midBlock]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-! ## The two output arrays after the region -/

/-- After all 64 points the difference array is the difference array of the two arguments as the region found them. -/
theorem diffArr_final (c : Dev nD) :
    (dat0 (F := Ideal) V c).arrAt 3 cfg0.N = diffOf (V c main_arg0) (V c main_arg1) :=
  (dat0 (F := Ideal) V c).arrAt_eq_of_cover 3 (diffOf (V c main_arg0) (V c main_arg1)) (fun t _ => flushedDiff_eq V c t) diff_covered

/-- And the quotient array is their quotient array. -/
theorem midArr_final (c : Dev nD) :
    (dat0 (F := Ideal) V c).arrAt 4 cfg0.N = midOf (V c main_arg0) (V c main_arg1) :=
  (dat0 (F := Ideal) V c).arrAt_eq_of_cover 4 (midOf (V c main_arg0) (V c main_arg1)) (fun t _ => flushedMid_eq V c t) mid_covered

/-- Entry (n, d) of the difference array after the region: mean (n, d) - targets (n, d). -/
theorem diff_final (c : Dev nD) (n : Fin 8192) (d : Fin 4096) :
    ((dat0 (F := Ideal) V c).arrAt 3 cfg0.N : S8192x4096.Idx → EReal) (ix2 n d) = Cert.Spec.diffE (V c main_arg0) (V c main_arg1) n d := by
  rw [diffArr_final]; rfl

/-- Entry (n, d) of the quotient array after the region: (mean (n, d) - targets (n, d)) / var (n, d). -/
theorem mid_final (c : Dev nD) (n : Fin 8192) (d : Fin 4096) :
    ((dat0 (F := Ideal) V c).arrAt 4 cfg0.N : S8192x4096.Idx → EReal) (ix2 n d) = Cert.Spec.midE (V c main_arg0) (V c main_arg1) n d := by
  rw [midArr_final]; rfl

end Cert.KernelIdeal.Fr

end
-- ==== Proof.KI.AccValue.lean ====
/- Region 1 of the idealized kernel, read as a value: the 4096 x 4096 output array after all 128 grid points is the
   product of the two 8192 x 4096 input arrays contracted along their ROWS: entry (i, j) is the sum over the 8192
   rows n of (first array at (n, i)) times (second array at (n, j)). -/
import proofs.«164337_j20615843021101_1_alg».proof.Proof.KI.Acc
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

open scoped BigOperators

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal.Gen

/-! ## The three arrays, at their literal types -/

variable (V : (c : Dev nD) → (b : Ref sig .tc) → Buf (Elt Ideal) ((c : Thread nD τ).loc b))

/-- The first input array as the region finds it: 8192 rows, 4096 columns. -/
abbrev lhsArr (c : Dev nD) : S8192x4096.Idx → EReal := V c main_v0_0
/-- The second input array as the region finds it: 8192 rows, 4096 columns. -/
abbrev rhsArr (c : Dev nD) : S8192x4096.Idx → EReal := V c main_v0_1
/-- The output array after the region, at its literal type. -/
abbrev outArr (c : Dev nD) : S4096x4096.Idx → EReal := (dat1 (F := Ideal) V c).arrAt 2 cfg1.N

namespace Gram

/-! ## One step of the accumulation at an entry -/

/-- The dimension numbers of a product that contracts the rows of both 1024 x 1024 operands: contracting axes 0 and 0,
    free axes 1 and 1, no batch axes. -/
abbrev rowsDims (w : DotDims.WF S1024x1024 S1024x1024 S1024x1024 [0] [0] [1] [1] [] []) :
    DotDims S1024x1024 S1024x1024 S1024x1024 := ⟨[0], [0], [1], [1], [], [], w⟩

/-- At those dimension numbers, into a zero accumulator, entry (p, q) of the product reads the left block at (r, p)
    and the right block at (r, q), r the contracted row, and is the sum of those 1024 products. -/
theorem rowsProduct_core {φ₁ φ₂ : FTy}
    (w : DotDims.WF S1024x1024 S1024x1024 S1024x1024 [0] [0] [1] [1] [] [])
    (prec : Option ContractPrecision) (a : FVec Ideal S1024x1024 φ₁) (b : FVec Ideal S1024x1024 φ₂) (p q : Fin 1024) :
    matmul (rowsDims w) prec a b (constant (F := Ideal) S1024x1024 .f32 0x00000000#32) (ix2 p q)
      = ∑ r : Fin 1024, a (ix2 r p) * b (ix2 r q) := by
  show FloatOps.matmul (rowsDims w) prec a b (constant (F := Ideal) S1024x1024 .f32 0x00000000#32) (ix2 p q) = _
  rw [Ideal.matmul_constant_zero_apply, ← Equiv.sum_comp (contrEquiv1 (rowsDims w) 1024 rfl rfl).symm]
  refine Finset.sum_congr rfl fun r _ => ?_
  have hr := contrEquiv1_symm_val (rowsDims w) 1024 rfl rfl r
  have hl : (rowsDims w).lhsIdx (ix2 p q) ((contrEquiv1 (rowsDims w) 1024 rfl rfl).symm r) = ix2 r p := by
    funext ax; apply Fin.ext
    match ax with
    | ⟨0, _⟩ => simp [DotDims.lhsIdx]; exact hr
    | ⟨1, _⟩ => simp [DotDims.lhsIdx]; rfl
  have hrr : (rowsDims w).rhsIdx (ix2 p q) ((contrEquiv1 (rowsDims w) 1024 rfl rfl).symm r) = ix2 r q := by
    funext ax; apply Fin.ext
    match ax with
    | ⟨0, _⟩ => simp [DotDims.rhsIdx]; exact hr
    | ⟨1, _⟩ => simp [DotDims.rhsIdx]; rfl
  rw [hl, hrr]

/-- The same for any record of dimension numbers with those axes. -/
theorem rowsProduct_apply {φ₁ φ₂ : FTy} (D : DotDims S1024x1024 S1024x1024 S1024x1024)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (a : FVec Ideal S1024x1024 φ₁) (b : FVec Ideal S1024x1024 φ₂) (p q : Fin 1024) :
    matmul D prec a b (constant (F := Ideal) S1024x1024 .f32 0x00000000#32) (ix2 p q)
      = ∑ r : Fin 1024, a (ix2 r p) * b (ix2 r q) := by
  cases D with
  | mk lc rc ln rn lb rb wf =>
    dsimp only at hlc hrc hln hrn hlb hrb
    subst hlc hrc hln hrn hlb hrb
    exact rowsProduct_core wf prec a b p q

/-- The block the accumulator is reset to is zero everywhere. -/
theorem zeroBlock_apply (p q : Fin 1024) : (k1_pay1 (F := Ideal)) (ix2 p q) = 0 := by
  unfold k1_pay1
  rw [shapeCast_self]
  exact Ideal.ofBits_zero_f32

/-- ONE STEP: the body's new accumulator at (p, q) is the old accumulator there plus the sum over the 1024 rows r of
    this step's blocks of (first block at (r, p)) times (second block at (r, q)). -/
theorem step_apply (a b : Vec Ideal S1024x1024 .bf16) (acc : Vec Ideal S1024x1024 .f32) (p q : Fin 1024) :
    k1_pay2 a b acc (ix2 p q) = acc (ix2 p q) + ∑ r : Fin 1024, a (ix2 r p) * b (ix2 r q) := by
  unfold k1_pay2
  rw [shapeCast_self, shapeCast_self, shapeCast_self, addf_apply]
  exact congrArg (acc (ix2 p q) + ·)
    (rowsProduct_apply dot_S1024x1024_S1024x1024_S1024x1024_0_0_1_1_n_n rfl rfl rfl rfl rfl rfl none a b p q)

/-! ## The input blocks, and where a block's entry sits in its array -/

/-- The first array's 1024 x 1024 block at grid point t. -/
abbrev ablk (c : Dev nD) (t : Fin cfg1.N) : Vec Ideal S1024x1024 .bf16 := iblk1 V c 0 t
/-- The second array's 1024 x 1024 block at grid point t. -/
abbrev bblk (c : Dev nD) (t : Fin cfg1.N) : Vec Ideal S1024x1024 .bf16 := iblk1 V c 1 t

theorem points : cfg1.N = 128 := N_1

/-- The block indices at point t = (bi * 4 + bj) * 8 + k, decided over the 128 points: the first array's block is
    (k, bi), the second's (k, bj), the output's (bi, bj), with k = t % 8, bi = t / 32, bj = t / 8 % 4. -/
theorem blockIndex : ∀ t : Fin cfg1.N,
    win1_0.index t (0 : Fin 2) = t.val % 8 ∧ win1_0.index t (1 : Fin 2) = t.val / 32
    ∧ win1_1.index t (0 : Fin 2) = t.val % 8 ∧ win1_1.index t (1 : Fin 2) = t.val / 8 % 4
    ∧ win1_2.index t (0 : Fin 2) = t.val / 32 ∧ win1_2.index t (1 : Fin 2) = t.val / 8 % 4 :=
  (by decide +kernel : ∀ t : Fin grid1.N, _)

/-- Entry (r, p) of the first array's block at point t is the array's entry (1024 (t % 8) + r, 1024 (t / 32) + p). -/
theorem ablk_apply (c : Dev nD) (t : Fin cfg1.N) (r p : Fin 1024) (i : Fin 8192) (j : Fin 4096)
    (hi : i.val = 1024 * (t.val % 8) + r.val) (hj : j.val = 1024 * (t.val / 32) + p.val) :
    ablk V c t (ix2 r p) = lhsArr V c (ix2 i j) := by
  obtain ⟨e0, e1, -, -, -, -⟩ := blockIndex t
  show lhsArr V c (((cfg1.win 0).blk t).view.emb (ix2 r p)) = lhsArr V c (ix2 i j)
  refine congrArg (lhsArr V c) ?_
  funext a; apply Fin.ext
  match a with
  | ⟨0, _⟩ => show win1_0.index t (0 : Fin 2) * 1024 + 1 * r.val = i.val; rw [e0, hi]; omega
  | ⟨1, _⟩ => show win1_0.index t (1 : Fin 2) * 1024 + 1 * p.val = j.val; rw [e1, hj]; omega

/-- Entry (r, q) of the second array's block at point t is the array's entry (1024 (t % 8) + r, 1024 (t / 8 % 4) + q). -/
theorem bblk_apply (c : Dev nD) (t : Fin cfg1.N) (r q : Fin 1024) (i : Fin 8192) (j : Fin 4096)
    (hi : i.val = 1024 * (t.val % 8) + r.val) (hj : j.val = 1024 * (t.val / 8 % 4) + q.val) :
    bblk V c t (ix2 r q) = rhsArr V c (ix2 i j) := by
  obtain ⟨-, -, e0, e1, -, -⟩ := blockIndex t
  show rhsArr V c (((cfg1.win 1).blk t).view.emb (ix2 r q)) = rhsArr V c (ix2 i j)
  refine congrArg (rhsArr V c) ?_
  funext a; apply Fin.ext
  match a with
  | ⟨0, _⟩ => show win1_1.index t (0 : Fin 2) * 1024 + 1 * r.val = i.val; rw [e0, hi]; omega
  | ⟨1, _⟩ => show win1_1.index t (1 : Fin 2) * 1024 + 1 * q.val = j.val; rw [e1, hj]; omega

/-! ## The accumulator along the contraction axis -/

/-- What grid point n adds to the accumulator's entry (p, q): the sum over the 1024 rows r of its two blocks of
    (first block at (r, p)) times (second block at (r, q)); nothing past the grid. -/
def stepAt (c : Dev nD) (p q : Fin 1024) (n : ℕ) : EReal :=
  if h : n < cfg1.N then ∑ r : Fin 1024, ablk V c ⟨n, h⟩ (ix2 r p) * bblk V c ⟨n, h⟩ (ix2 r q) else 0

theorem stepAt_of_lt (c : Dev nD) (p q : Fin 1024) (n : ℕ) (h : n < cfg1.N) :
    stepAt V c p q n = ∑ r : Fin 1024, ablk V c ⟨n, h⟩ (ix2 r p) * bblk V c ⟨n, h⟩ (ix2 r q) := dif_pos h

/-- THE RUNNING SUM. Points come in runs of 8 along the contraction axis; the accumulator restarts from zero at the
    first point of a run and adds at each later one, so after point n its entry (p, q) is the sum of what the points
    of n's run up to n added: points n - n % 8, …, n. Addition on the extended reals is a commutative monoid; nothing
    else is used. -/
theorem accAt_apply (c : Dev nD) (p q : Fin 1024) : ∀ (n : ℕ) (hn : n < cfg1.N),
    accAt V c n hn (ix2 p q) = ∑ s ∈ Finset.range (n % 8 + 1), stepAt V c p q (n - n % 8 + s) := by
  intro n
  induction n with
  | zero =>
    intro hn
    refine (congrFun (accAt_first V c ⟨0, hn⟩ rfl) (ix2 p q)).trans ?_
    refine (step_apply (ablk V c ⟨0, hn⟩) (bblk V c ⟨0, hn⟩) (k1_pay1 (F := Ideal)) p q).trans ?_
    rw [zeroBlock_apply, zero_add]
    show _ = ∑ s ∈ Finset.range 1, stepAt V c p q (0 + s)
    rw [Finset.sum_range_one, stepAt_of_lt V c p q (0 + 0) hn]
  | succ n ih =>
    intro hn
    by_cases h : (n + 1) % 8 = 0
    · refine (congrFun (accAt_first V c ⟨n + 1, hn⟩ h) (ix2 p q)).trans ?_
      refine (step_apply (ablk V c ⟨n + 1, hn⟩) (bblk V c ⟨n + 1, hn⟩) (k1_pay1 (F := Ideal)) p q).trans ?_
      rw [zeroBlock_apply, zero_add, h, Finset.sum_range_one]
      show _ = stepAt V c p q (n + 1)
      rw [stepAt_of_lt V c p q (n + 1) hn]
    · refine (congrFun (accAt_later V c ⟨n + 1, hn⟩ h) (ix2 p q)).trans ?_
      refine (step_apply (ablk V c ⟨n + 1, hn⟩) (bblk V c ⟨n + 1, hn⟩)
        (accAt V c n (Nat.lt_of_succ_lt hn)) p q).trans ?_
      rw [ih (Nat.lt_of_succ_lt hn)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, stepAt_of_lt V c p q (n + 1) hn]

/-! ## Eight blocks of 1024 rows are the 8192 rows -/

/-- Row r of the s-th block of 1024 rows. -/
abbrev rowAt (s : Fin 8) (r : Fin 1024) : Fin 8192 :=
  ⟨1024 * s.val + r.val, by have := s.isLt; have := r.isLt; omega⟩

/-- (block of rows, row inside the block) ↦ row of the array, a bijection. -/
def rowBlocks : Fin 8 × Fin 1024 ≃ Fin 8192 :=
  finProdFinEquiv.trans (finCongr (by norm_num : 8 * 1024 = 8192))

theorem rowBlocks_apply (s : Fin 8) (r : Fin 1024) : rowBlocks (s, r) = rowAt s r :=
  Fin.ext (by show r.val + 1024 * s.val = 1024 * s.val + r.val; exact Nat.add_comm _ _)

/-- A sum over the 8192 rows is the sum over the 8 blocks of rows of the sums over each block's 1024 rows. -/
theorem sum_rowBlocks {M : Type*} [AddCommMonoid M] (x : Fin 8192 → M) :
    ∑ n : Fin 8192, x n = ∑ s : Fin 8, ∑ r : Fin 1024, x (rowAt s r) := by
  rw [← Equiv.sum_comp rowBlocks x, Fintype.sum_prod_type]
  exact Finset.sum_congr rfl fun s _ => Finset.sum_congr rfl fun r _ => congrArg x (rowBlocks_apply s r)

/-- THE FULL CONTRACTION. At the last point of a run (t % 8 = 7) the accumulator's entry (p, q) is the sum over ALL
    8192 rows n of (first array at (n, i)) times (second array at (n, j)), where i = 1024 (t / 32) + p and
    j = 1024 (t / 8 % 4) + q are the entry's row and column in the output array: the run's eight points bring the
    eight blocks of rows, block s at point t - 7 + s. -/
theorem accAt_last (c : Dev nD) (t : Fin cfg1.N) (h7 : t.val % 8 = 7) (p q : Fin 1024) (i j : Fin 4096)
    (hi : i.val = 1024 * (t.val / 32) + p.val) (hj : j.val = 1024 * (t.val / 8 % 4) + q.val) :
    accAt V c t.val t.isLt (ix2 p q) = ∑ n : Fin 8192, lhsArr V c (ix2 n i) * rhsArr V c (ix2 n j) := by
  have ht : t.val < 128 := points ▸ t.isLt
  have e8 : t.val % 8 + 1 = 8 := by omega
  rw [accAt_apply V c p q t.val t.isLt, e8, Finset.sum_range,
    sum_rowBlocks (fun n => lhsArr V c (ix2 n i) * rhsArr V c (ix2 n j))]
  refine Finset.sum_congr rfl fun s _ => ?_
  have hs8 : s.val < 8 := s.isLt
  have hs : t.val - t.val % 8 + s.val < cfg1.N := Nat.lt_of_lt_of_eq (by omega) points.symm
  rw [stepAt_of_lt V c p q _ hs]
  refine Finset.sum_congr rfl fun r _ => ?_
  rw [ablk_apply V c ⟨t.val - t.val % 8 + s.val, hs⟩ r p (rowAt s r) i
      (by show 1024 * s.val + r.val = 1024 * ((t.val - t.val % 8 + s.val) % 8) + r.val; omega)
      (by show i.val = 1024 * ((t.val - t.val % 8 + s.val) / 32) + p.val; omega),
    bblk_apply V c ⟨t.val - t.val % 8 + s.val, hs⟩ r q (rowAt s r) j
      (by show 1024 * s.val + r.val = 1024 * ((t.val - t.val % 8 + s.val) % 8) + r.val; omega)
      (by show j.val = 1024 * ((t.val - t.val % 8 + s.val) / 8 % 4) + q.val; omega)]

/-! ## From the blocks to the output array -/

/-- The product of the two input arrays contracted along their rows: entry (i, j) sums, over the 8192 rows n, the
    first array at (n, i) times the second array at (n, j). -/
abbrev gram (c : Dev nD) : S4096x4096.Idx → EReal :=
  fun i => ∑ n : Fin 8192, lhsArr V c (ix2 n (i 0)) * rhsArr V c (ix2 n (i 1))

/-- A point that writes the output's block back writes that block of the product: such a point is the last of its
    run, its accumulator holds the full contraction, and entry (p, q) of the output's block (t / 32, t / 8 % 4) sits at
    (1024 (t / 32) + p, 1024 (t / 8 % 4) + q) in the array. -/
theorem flushed_eq (c : Dev nD) (t : Fin cfg1.N) (hf : (cfg1.win 2).flush t = true) :
    (dat1 (F := Ideal) V c).flushed 2 t = ((cfg1.win 2).blk t).view.read (Elt Ideal) (gram V c) := by
  have h7 : t.val % 8 = 7 := (flush1_2 t).mp hf
  have ht : t.val < 128 := points ▸ t.isLt
  obtain ⟨-, -, -, -, e0, e1⟩ := blockIndex t
  show (cfg1.win 2).cut (grid1.coords t) ((dat1 (F := Ideal) V c).after 2 t) = _
  rw [after1_2]
  funext y
  obtain ⟨p, q, rfl⟩ : ∃ (p : Fin 1024) (q : Fin 1024), y = ix2 p q := ⟨y 0, y 1, eq_ix2 y⟩
  show accAt V c t.val t.isLt (ix2 p q) = gram V c (((cfg1.win 2).blk t).view.emb (ix2 p q))
  have hp : p.val < 1024 := p.isLt
  have hq : q.val < 1024 := q.isLt
  have e : ((cfg1.win 2).blk t).view.emb (ix2 p q)
      = ix2 (⟨1024 * (t.val / 32) + p.val, by omega⟩ : Fin 4096) (⟨1024 * (t.val / 8 % 4) + q.val, by omega⟩ : Fin 4096) := by
    funext a; apply Fin.ext
    match a with
    | ⟨0, _⟩ => show win1_2.index t (0 : Fin 2) * 1024 + 1 * p.val = 1024 * (t.val / 32) + p.val; rw [e0]; omega
    | ⟨1, _⟩ => show win1_2.index t (1 : Fin 2) * 1024 + 1 * q.val = 1024 * (t.val / 8 % 4) + q.val; rw [e1]; omega
  rw [e]
  exact accAt_last V c t h7 p q _ _ rfl rfl

/-- Every entry (i₀, i₁) of the output array is in the block some writing point writes: the last point of the run
    of block (i₀ / 1024, i₁ / 1024). -/
theorem cover (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  obtain ⟨t, ht⟩ : ∃ t : Fin cfg1.N, t.val = ((i 0).val / 1024 * 4 + (i 1).val / 1024) * 8 + 7 :=
    ⟨⟨((i 0).val / 1024 * 4 + (i 1).val / 1024) * 8 + 7, Nat.lt_of_lt_of_eq (by omega) points.symm⟩, rfl⟩
  obtain ⟨-, -, -, -, e0, e1⟩ := blockIndex t
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 1024 ≤ (i 1).val ∧ (i 1).val < win1_2.index t (1 : Fin 2) * 1024 + 1024
    rw [e1]; omega

/-- THE OUTPUT ARRAY after all 128 points is the product of the two input arrays contracted along their rows. -/
theorem gram_array (c : Dev nD) : (dat1 (F := Ideal) V c).arrAt 2 cfg1.N = gram V c :=
  (dat1 (F := Ideal) V c).arrAt_eq_of_cover 2 (gram V c) (flushed_eq V c) cover

end Gram

/-- Entry by entry: (i, j) of the output is the sum over the 8192 rows n of (first array at (n, i)) times (second
    array at (n, j)). -/
theorem gram_final (c : Dev nD) (i j : Fin 4096) :
    outArr V c (ix2 i j) = ∑ n : Fin 8192, lhsArr V c (ix2 n i) * rhsArr V c (ix2 n j) :=
  congrFun (Gram.gram_array V c) (ix2 i j)

end Cert.KernelIdeal.Fr

end
-- ==== Proof.KI.Total.lean ====
/- The Gram array the second region leaves is the Gram matrix of the launch arguments: region 0's two result arrays
   are the difference and the quotient entry by entry, and region 1 contracts them over the 8192 rows. -/
import proofs.«164337_j20615843021101_1_alg».proof.Proof.KI.Result
import proofs.«164337_j20615843021101_1_alg».proof.Proof.KI.PrepValue
import proofs.«164337_j20615843021101_1_alg».proof.Proof.KI.AccValue
import proofs.«164337_j20615843021101_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Entry (i, j) of what region 1 leaves: the sum over the rows of difference times quotient. -/
theorem gram_entry (c : Dev nD) (i j : Fin 4096) :
    (W2 (F := Ideal) m ρ c (Proc.devRef .tc main_v1) : S4096x4096.Idx → EReal) (ix2 i j)
      = Cert.Spec.gramE (m ((c : Thread nD τ).loc main_arg0)) (m ((c : Thread nD τ).loc main_arg1)) i j := by
  refine (congrFun (W2_v1 m ρ c) (ix2 i j)).trans ?_
  refine (gram_final (V1 m ρ) c i j).trans ?_
  unfold Cert.Spec.gramE
  refine Finset.sum_congr rfl fun n _ => ?_
  have hd : lhsArr (V1 m ρ) c (ix2 n i)
      = Cert.Spec.diffE (m ((c : Thread nD τ).loc main_arg0)) (m ((c : Thread nD τ).loc main_arg1)) n i :=
    (congrFun (W1_v0_0 m ρ c) (ix2 n i)).trans (diff_final (V0 m ρ) c n i)
  have hm : rhsArr (V1 m ρ) c (ix2 n j)
      = Cert.Spec.midE (m ((c : Thread nD τ).loc main_arg0)) (m ((c : Thread nD τ).loc main_arg1)) n j :=
    (congrFun (W1_v0_1 m ρ c) (ix2 n j)).trans (mid_final (V0 m ρ) c n j)
  rw [hd, hm]

/-- As arrays. -/
theorem gram_total (c : Dev nD) :
    W2 (F := Ideal) m ρ c (Proc.devRef .tc main_v1)
      = Cert.Spec.gramArr (m ((c : Thread nD τ).loc main_arg0)) (m ((c : Thread nD τ).loc main_arg1)) := by
  funext ij
  have e : ij = ix2 (ij 0) (ij 1) := eq_ix2 ij
  rw [e]
  exact gram_entry m ρ c (ij 0) (ij 1)

/-- THE RESULT: the program's result buffer ends at trace (Gram matrix) + log (sum of the variances), the Gram
    matrix the specification's. -/
theorem result_total (c : Dev nD) :
    W4 (F := Ideal) m ρ c (Proc.devRef .tc main_v6)
      = closing (F := Ideal) (Cert.Spec.gramArr (m ((c : Thread nD τ).loc main_arg0)) (m ((c : Thread nD τ).loc main_arg1)))
          (m ((c : Thread nD τ).loc main_arg0)) := by
  rw [result_fold m ρ c, gram_total m ρ c]

end Cert.KernelIdeal.Fr

end
-- ==== Proof.RefGram.lean ====
/- The reference's Gram matrix, read entry by entry, is the specification's. With x = [A | B] an 8192 x 8192 array
   of extended reals (A its left 4096 columns, B its right 4096 columns) and y an 8192 x 4096 array, the reference
   forms D = A - y, the entrywise quotient Q = D / B, the transpose of D, and contracts the transpose's second axis
   with Q's first. Entry (i, j) of the result is therefore the sum over the 8192 rows n of D (n, i) * Q (n, j), the
   two factors in that order: the specification's entry, term for term. Each operation is read at one index: a column
   half at (n, d) is x at column d, or at column 4096 + d; a difference and a quotient are entrywise; the transpose at
   (i, n) is its operand at (n, i); the contraction is the plain product of a 4096 x 8192 by an 8192 x 4096 matrix. -/
import proofs.«164337_j20615843021101_1_alg».proof.Proof.Ref.Run
import proofs.«164337_j20615843021101_1_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.ReferenceIdeal.RefGram

open Idealize.ShloMosaic Idealize.ShloMosaic.ValueIdx Cert.ReferenceIdeal Cert.ReferenceIdeal.Gen Cert.Spec

section AtAnIndex

variable (x : FVec Ideal ⟨2, ![8192, 8192]⟩ .f32) (y : FVec Ideal ⟨2, ![8192, 4096]⟩ .f32)

/-- The left column half of x at row n, column d is x at row n, column d. -/
theorem leftHalf_apply (n : Fin 8192) (d : Fin 4096) :
    extractStridedSlice S8192x4096 ![0, 0] x slices_S8192x8192_S8192x4096_0_0 (ix2 n d) = x (ix2 n (colL d)) :=
  extractStridedSlice_apply _ x _ (ix2 n d) (ix2 n (colL d)) fun a =>
    match a with
    | ⟨0, _⟩ => by show n.val = 0 + n.val; omega
    | ⟨1, _⟩ => by show d.val = 0 + d.val; omega

/-- The right column half of x at row n, column d is x at row n, column 4096 + d. -/
theorem rightHalf_apply (n : Fin 8192) (d : Fin 4096) :
    extractStridedSlice S8192x4096 ![0, 4096] x slices_S8192x8192_S8192x4096_0_4096 (ix2 n d) = x (ix2 n (colR d)) :=
  extractStridedSlice_apply _ x _ (ix2 n d) (ix2 n (colR d)) fun a =>
    match a with
    | ⟨0, _⟩ => by show n.val = 0 + n.val; omega
    | ⟨1, _⟩ => by show 4096 + d.val = 4096 + d.val; rfl

/-- The difference D = A - y at row n, column d. -/
theorem diff_apply (n : Fin 8192) (d : Fin 4096) :
    subf (extractStridedSlice S8192x4096 ![0, 0] x slices_S8192x8192_S8192x4096_0_0) y (ix2 n d) = diffE x y n d := by
  rw [subf_apply, leftHalf_apply]; rfl

/-- The quotient Q = D / B at row n, column d: the division is the extended reals' one the specification names. -/
theorem mid_apply (n : Fin 8192) (d : Fin 4096) :
    Host.divf (F := Ideal) (subf (extractStridedSlice S8192x4096 ![0, 0] x slices_S8192x8192_S8192x4096_0_0) y)
      (extractStridedSlice S8192x4096 ![0, 4096] x slices_S8192x8192_S8192x4096_0_4096) (ix2 n d) = midE x y n d := by
  show Ideal.div (subf (extractStridedSlice S8192x4096 ![0, 0] x slices_S8192x8192_S8192x4096_0_0) y (ix2 n d))
      (extractStridedSlice S8192x4096 ![0, 4096] x slices_S8192x8192_S8192x4096_0_4096 (ix2 n d)) = _
  rw [diff_apply, rightHalf_apply]; rfl

/-- The transpose of an 8192 x 4096 array at (i, n) is the array at (n, i). -/
theorem transposed_apply (D : FVec Ideal ⟨2, ![8192, 4096]⟩ .f32) (i : Fin 4096) (n : Fin 8192) :
    transpose S4096x8192 [1, 0] D transposes_S8192x4096_S4096x8192_1_0 (ix2 i n) = D (ix2 n i) :=
  transpose_apply _ D _ (ix2 i n) (ix2 n i) fun b =>
    match b with
    | ⟨0, _⟩ => rfl
    | ⟨1, _⟩ => rfl

/-- The reference's contraction (second axis of the left operand with the first of the right, no batch axis) is the
    plain matrix product's. -/
theorem dot_eq_plain : dot_S4096x8192_S8192x4096_S4096x4096_1_0_0_1_n_n = DotDims.plain 4096 8192 4096 := rfl

/-- So at (i, j) it is the sum over the 8192 contracted positions n of A (i, n) * B (n, j). -/
theorem dot_apply (A : FVec Ideal ⟨2, ![4096, 8192]⟩ .f32) (B : FVec Ideal ⟨2, ![8192, 4096]⟩ .f32) (i j : Fin 4096) :
    Host.dotGeneral (F := Ideal) dot_S4096x8192_S8192x4096_S4096x4096_1_0_0_1_n_n none A B (ix2 i j)
      = ∑ n : Fin 8192, A (ix2 i n) * B (ix2 n j) := by
  rw [dot_eq_plain]
  exact StackMember.dotGeneral_plain_apply none A B i j

/-- Entry (i, j) of the reference's Gram matrix: the sum over the rows n of D (n, i) * Q (n, j). -/
theorem gramTerm_apply (i j : Fin 4096) : RefRun.gramTerm (F := Ideal) x y (ix2 i j) = gramE x y i j := by
  show Host.dotGeneral (F := Ideal) dot_S4096x8192_S8192x4096_S4096x4096_1_0_0_1_n_n none
      (transpose S4096x8192 [1, 0]
        (subf (extractStridedSlice S8192x4096 ![0, 0] x slices_S8192x8192_S8192x4096_0_0) y)
        transposes_S8192x4096_S4096x8192_1_0)
      (Host.divf (F := Ideal)
        (subf (extractStridedSlice S8192x4096 ![0, 0] x slices_S8192x8192_S8192x4096_0_0) y)
        (extractStridedSlice S8192x4096 ![0, 4096] x slices_S8192x8192_S8192x4096_0_4096)) (ix2 i j)
    = ∑ n : Fin 8192, diffE x y n i * midE x y n j
  rw [dot_apply]
  refine Finset.sum_congr rfl fun n _ => ?_
  rw [transposed_apply, diff_apply, mid_apply]

end AtAnIndex

/-- The reference's Gram matrix is the specification's, as arrays: equal at every entry (i, j). -/
theorem gramTerm_eq (x : (⟨S8192x8192, .f32⟩ : BufTy).Contents (Elt Ideal)) (y : (⟨S8192x4096, .f32⟩ : BufTy).Contents (Elt Ideal)) :
    Cert.ReferenceIdeal.RefRun.gramTerm (F := Ideal) x y = Cert.Spec.gramArr x y := by
  funext ij
  obtain ⟨i, j, rfl⟩ : ∃ (i : Fin 4096) (j : Fin 4096), ij = ix2 i j := ⟨ij 0, ij 1, eq_ix2 ij⟩
  exact gramTerm_apply x y i j

end Cert.ReferenceIdeal.RefGram

end
-- ==== Proof.lean ====
/- Both programs compute trace (Dᵀ · (D / B)) + log (Σ B) from x = [A | B] (8192 x 8192, A and B its column
   halves) and y (8192 x 4096), with D = A - y and the quotient taken entry by entry. The kernel forms D and D / B
   block by block in a first region, contracts them over the 8192 rows in a second region that adds up eight row
   blocks of 1024 in an accumulator, and takes the trace and the logarithm on the host; the reference does it all on
   the host with one contraction. Over the extended reals a format change is the identity, and regrouping a sum
   needs only that addition is commutative and associative, so the two Gram matrices agree entry by entry and the
   closing operations, the same on both sides, give the same result. No finiteness of the inputs is used.
   The frames: each program runs to the end without a fault and leaves both arguments as launched. -/
import proofs.«164337_j20615843021101_1_alg».proof.Defs
import proofs.«164337_j20615843021101_1_alg».proof.Proof.Gen.Kernel
import proofs.«164337_j20615843021101_1_alg».proof.Proof.Gen.KernelIdeal
import proofs.«164337_j20615843021101_1_alg».proof.Proof.Gen.ReferenceIdeal
import proofs.«164337_j20615843021101_1_alg».proof.Proof.Gen.Pre_finite_inputs
import proofs.«164337_j20615843021101_1_alg».proof.Proof.K.Launch
import proofs.«164337_j20615843021101_1_alg».proof.Proof.KI.Total
import proofs.«164337_j20615843021101_1_alg».proof.Proof.RefGram
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The two idealized programs end at one value: the closing operations of the specification's Gram matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.closing (F := Ideal)
      (Cert.Spec.gramArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)), ?_, ?_⟩
  · refine (θ_run Cert.KernelIdeal.defs _ _).mono (fun r h c => ⟨?_, ?_, ?_⟩) (Cert.KernelIdeal.Fr.run_all (F := Ideal) m ρ)
    · exact (h c _ (Cert.KernelIdeal.Fr.mem_uc Cert.KernelIdeal.main_v6 (by decide))).trans (Cert.KernelIdeal.Fr.result_total m ρ c)
    · exact (h c _ (Cert.KernelIdeal.Fr.mem_uc Cert.KernelIdeal.main_arg0 (by decide))).trans
        (Cert.KernelIdeal.Fr.W4_keeps m ρ c Cert.KernelIdeal.main_arg0 (by decide) (by decide) (by decide) (by decide) (by decide))
    · exact (h c _ (Cert.KernelIdeal.Fr.mem_uc Cert.KernelIdeal.main_arg1 (by decide))).trans
        (Cert.KernelIdeal.Fr.W4_keeps m ρ c Cert.KernelIdeal.main_arg1 (by decide) (by decide) (by decide) (by decide) (by decide))
  · refine (θ_run Cert.ReferenceIdeal.defs _ _).mono (fun r h c => ⟨(h c).1.trans ?_, (h c).2⟩)
      (Cert.ReferenceIdeal.RefRun.run (F := Ideal) m' ρ')
    rw [(hagree c).1, (hagree c).2]
    unfold Cert.ReferenceIdeal.RefRun.result
    rw [Cert.ReferenceIdeal.RefGram.gramTerm_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
